-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S3936 : Shape := ⟨1, ![3936]⟩
abbrev S1703936 : Shape := ⟨1, ![1703936]⟩
abbrev S1703936x1 : Shape := ⟨2, ![1703936, 1]⟩
abbrev S2000x64 : Shape := ⟨2, ![2000, 64]⟩
abbrev S1703936x64 : Shape := ⟨2, ![1703936, 64]⟩
abbrev S4096x64 : Shape := ⟨2, ![4096, 64]⟩
abbrev S4096x1 : Shape := ⟨2, ![4096, 1]⟩
abbrev S100000x32 : Shape := ⟨2, ![100000, 32]⟩
abbrev S2000x32 : Shape := ⟨2, ![2000, 32]⟩
abbrev S1x64 : Shape := ⟨2, ![1, 64]⟩
abbrev S1703936x32 : Shape := ⟨2, ![1703936, 32]⟩
abbrev S4096x32 : Shape := ⟨2, ![4096, 32]⟩
abbrev S1x32 : Shape := ⟨2, ![1, 32]⟩

abbrev nBuf : Space → Nat
  | .hbm => 85
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S3936, .i32⟩
  | .hbm, ⟨48, _⟩ => ⟨S_, .f32⟩
  | .hbm, ⟨49, _⟩ => ⟨S3936, .f32⟩
  | .hbm, ⟨50, _⟩ => ⟨S1703936, .i32⟩
  | .hbm, ⟨51, _⟩ => ⟨S1703936, .i32⟩
  | .hbm, ⟨52, _⟩ => ⟨S1703936, .f32⟩
  | .hbm, ⟨53, _⟩ => ⟨S1703936x1, .f32⟩
  | .hbm, ⟨54, _⟩ => ⟨S100000x64, .f32⟩
  | .hbm, ⟨55, _⟩ => ⟨S_, .i32⟩
  | .hbm, ⟨56, _⟩ => ⟨S1703936, .i32⟩
  | .hbm, ⟨57, _⟩ => ⟨S1703936, .i1⟩
  | .hbm, ⟨58, _⟩ => ⟨S_, .i32⟩
  | .hbm, ⟨59, _⟩ => ⟨S1703936, .i32⟩
  | .hbm, ⟨60, _⟩ => ⟨S1703936, .i32⟩
  | .hbm, ⟨61, _⟩ => ⟨S1703936, .i32⟩
  | .hbm, ⟨62, _⟩ => ⟨S1703936x1, .i32⟩
  | .hbm, ⟨63, _⟩ => ⟨S1703936x64, .f32⟩
  | .hbm, ⟨64, _⟩ => ⟨S1703936x64, .f32⟩
  | .hbm, ⟨65, _⟩ => ⟨S_, .f32⟩
  | .hbm, ⟨66, _⟩ => ⟨S100000x64, .f32⟩
  | .hbm, ⟨67, _⟩ => ⟨S1703936x1, .i32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1703936, .i32⟩
  | .hbm, ⟨72, _⟩ => ⟨S1703936, .i1⟩
  | .hbm, ⟨73, _⟩ => ⟨S_, .i32⟩
  | .hbm, ⟨74, _⟩ => ⟨S1703936, .i32⟩
  | .hbm, ⟨75, _⟩ => ⟨S1703936, .i32⟩
  | .hbm, ⟨76, _⟩ => ⟨S1703936, .i32⟩
  | .hbm, ⟨77, _⟩ => ⟨S1703936x1, .i32⟩
  | .hbm, ⟨78, _⟩ => ⟨S1703936x32, .f32⟩
  | .hbm, ⟨79, _⟩ => ⟨S1703936x32, .f32⟩
  | .hbm, ⟨80, _⟩ => ⟨S_, .f32⟩
  | .hbm, ⟨81, _⟩ => ⟨S100000x32, .f32⟩
  | .hbm, ⟨82, _⟩ => ⟨S1703936x1, .i32⟩
  | .hbm, ⟨83, _⟩ => ⟨S100000x32, .f32⟩
  | .hbm, ⟨84, _⟩ => ⟨S100000x32, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S4096x64, .f32⟩
  | .local _ .vmem, ⟨6, _⟩ => ⟨S4096x64, .f32⟩
  | .local _ .vmem, ⟨7, _⟩ => ⟨S4096x1, .f32⟩
  | .local _ .vmem, ⟨8, _⟩ => ⟨S4096x1, .f32⟩
  | .local _ .vmem, ⟨9, _⟩ => ⟨S4096x64, .f32⟩
  | .local _ .vmem, ⟨10, _⟩ => ⟨S4096x64, .f32⟩
  | .local _ .vmem, ⟨11, _⟩ => ⟨S2000x64, .f32⟩
  | .local _ .vmem, ⟨12, _⟩ => ⟨S2000x64, .f32⟩
  | .local _ .vmem, ⟨13, _⟩ => ⟨S64, .f32⟩
  | .local _ .vmem, ⟨14, _⟩ => ⟨S64x32, .f32⟩
  | .local _ .vmem, ⟨15, _⟩ => ⟨S2000x32, .f32⟩
  | .local _ .vmem, ⟨16, _⟩ => ⟨S2000x32, .f32⟩
  | .local _ .vmem, ⟨17, _⟩ => ⟨S4096x32, .f32⟩
  | .local _ .vmem, ⟨18, _⟩ => ⟨S4096x32, .f32⟩
  | .local _ .vmem, ⟨19, _⟩ => ⟨S4096x1, .f32⟩
  | .local _ .vmem, ⟨20, _⟩ => ⟨S4096x1, .f32⟩
  | .local _ .vmem, ⟨21, _⟩ => ⟨S4096x32, .f32⟩
  | .local _ .vmem, ⟨22, _⟩ => ⟨S4096x32, .f32⟩
  | .local _ .vmem, ⟨23, _⟩ => ⟨S2000x32, .f32⟩
  | .local _ .vmem, ⟨24, _⟩ => ⟨S2000x32, .f32⟩
  | .local _ .vmem, ⟨25, _⟩ => ⟨S32, .f32⟩
  | .local _ .vmem, ⟨26, _⟩ => ⟨S2000x32, .f32⟩
  | .local _ .vmem, ⟨27, _⟩ => ⟨S2000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![416], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![416], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S3936 : S_.BroadcastsInDim S3936 (![] : Fin 0 → Fin S3936.rank)
  concatenates_S1700000_S3936_S1703936_d0 : Shape.Concatenates [S1700000, S3936] S1703936 0
  bcast_S1703936_S1703936x1_0 : S1703936.BroadcastsInDim S1703936x1 (![0] : Fin 1 → Fin S1703936x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1703936 : S_.BroadcastsInDim S1703936 (![] : Fin 0 → Fin S1703936.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  bcast_S_S100000x64 : S_.BroadcastsInDim S100000x64 (![] : Fin 0 → Fin S100000x64.rank)
  shapeCasts_S2000x64_S2000x64 : S2000x64.ShapeCasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  broadcasts_S4096x1_S4096x32 : S4096x1.Broadcasts S4096x32
  bcast_S_S100000x32 : S_.BroadcastsInDim S100000x32 (![] : Fin 0 → Fin S100000x32.rank)
  shapeCasts_S2000x32_S2000x32 : S2000x32.ShapeCasts S2000x32
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x64_S64x64_S2000x64_1_0_0_1_n_n_wf : DotDims.WF S2000x64 S64x64 S2000x64 [1] [0] [0] [1] [] []
  gather_S100000x64_S1703936x1_S1703936x64_1_0_n_n_0_1_164_wf : GatherDims.WF S100000x64 S1703936x1 S1703936x64 [1] [0] [] [0] [] 1 ![1, 64]
  scatter_S100000x64_S1703936x1_S1703936x64_1_0_0_1_wf : ScatterDims.WF S100000x64 S1703936x1 S1703936x64 [1] [0] [0] 1
  dot_S2000x64_S64x32_S2000x32_1_0_0_1_n_n_wf : DotDims.WF S2000x64 S64x32 S2000x32 [1] [0] [0] [1] [] []
  gather_S100000x32_S1703936x1_S1703936x32_1_0_n_n_0_1_132_wf : GatherDims.WF S100000x32 S1703936x1 S1703936x32 [1] [0] [] [0] [] 1 ![1, 32]
  scatter_S100000x32_S1703936x1_S1703936x32_1_0_0_1_wf : ScatterDims.WF S100000x32 S1703936x1 S1703936x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S1703936x64.size a
  hwx1_0 : ∀ i : grid1.Coords, EltTy.bits .f32 = 32 ∨ (Rect.block (s := S1703936x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S1703936x1.size a
  hwx1_1 : ∀ i : grid1.Coords, EltTy.bits .f32 = 32 ∨ (Rect.block (s := S1703936x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S1703936x64.size a
  hwx1_2 : ∀ i : grid1.Coords, EltTy.bits .f32 = 32 ∨ (Rect.block (s := S1703936x64) S4096x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S100000x32.size a
  hwx2_3 : ∀ i : grid2.Coords, EltTy.bits .f32 = 32 ∨ (Rect.block (s := S100000x32) S2000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x32.size a ≤ S1703936x32.size a
  hwx3_0 : ∀ i : grid3.Coords, EltTy.bits .f32 = 32 ∨ (Rect.block (s := S1703936x32) S4096x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S1703936x1.size a
  hwx3_1 : ∀ i : grid3.Coords, EltTy.bits .f32 = 32 ∨ (Rect.block (s := S1703936x1) S4096x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x32.size a ≤ S1703936x32.size a
  hwx3_2 : ∀ i : grid3.Coords, EltTy.bits .f32 = 32 ∨ (Rect.block (s := S1703936x32) S4096x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32.size a ≤ S32.size a
  hwx4_1 : ∀ i : grid4.Coords, EltTy.bits .f32 = 32 ∨ (Rect.block (s := S32) S32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x32.size a ≤ S100000x32.size a
  hwx4_2 : ∀ i : grid4.Coords, EltTy.bits .f32 = 32 ∨ (Rect.block (s := S100000x32) S2000x32.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1703936x1_S1703936x64_1_0_n_n_0_1_164 : GatherDims S100000x64 S1703936x1 S1703936x64 where
  offsetDims := [1]
  collapsedSliceDims := [0]
  operandBatchingDims := []
  startIndicesBatchingDims := []
  startIndexMap := [0]
  indexVectorDim := 1
  sliceSizes := ![1, 64]
  wf := gather_S100000x64_S1703936x1_S1703936x64_1_0_n_n_0_1_164_wf
def scatter_S100000x64_S1703936x1_S1703936x64_1_0_0_1 : ScatterDims S100000x64 S1703936x1 S1703936x64 where
  updateWindowDims := [1]
  insertedWindowDims := [0]
  scatterDimsToOperandDims := [0]
  indexVectorDim := 1
  wf := scatter_S100000x64_S1703936x1_S1703936x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1703936x1_S1703936x32_1_0_n_n_0_1_132 : GatherDims S100000x32 S1703936x1 S1703936x32 where
  offsetDims := [1]
  collapsedSliceDims := [0]
  operandBatchingDims := []
  startIndicesBatchingDims := []
  startIndexMap := [0]
  indexVectorDim := 1
  sliceSizes := ![1, 32]
  wf := gather_S100000x32_S1703936x1_S1703936x32_1_0_n_n_0_1_132_wf
def scatter_S100000x32_S1703936x1_S1703936x32_1_0_0_1 : ScatterDims S100000x32 S1703936x1 S1703936x32 where
  updateWindowDims := [1]
  insertedWindowDims := [0]
  scatterDimsToOperandDims := [0]
  indexVectorDim := 1
  wf := scatter_S100000x32_S1703936x1_S1703936x32_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S2000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S4096x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S4096x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S2000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Rows.lean ====
/-
  The arithmetic of one graph-convolution layer, index by index over the extended reals.

  A feature matrix `x : [n, k]` times a weight matrix `w : [k, f]` is, at row `i` and column `j`, the sum over the
  `k` shared coordinates of `x i κ * w κ j` (`rowsMul`). A bias vector is added to every row (`addRow`), the rectifier
  clips the biased entry at zero (`reluAddRow`), and a column of per-row factors scales every row (`scaleRows`):
  the message on edge `e` is the gathered source row times the edge's normalization.
-/
import Idealize.ShloMosaic.Lib.ValueIdx

noncomputable section

open scoped BigOperators

namespace Cert.Gcn

open Idealize.ShloMosaic Idealize.ShloMosaic.ValueIdx

/-- The row coordinate of a rank-2 index, typed by the first extent itself. -/
abbrev row {n f : Nat} (i : (⟨2, ![n, f]⟩ : Shape).Idx) : Fin n := ⟨(i 0).val, idx2_lt0 i⟩
/-- The column coordinate of a rank-2 index, typed by the second extent itself. -/
abbrev col {n f : Nat} (i : (⟨2, ![n, f]⟩ : Shape).Idx) : Fin f := ⟨(i 1).val, idx2_lt1 i⟩

/-- `x · w`: entry `(i, j)` is `∑ κ, x (i, κ) * w (κ, j)`. -/
def rowsMul {n k f : Nat} (x : (⟨2, ![n, k]⟩ : Shape).Idx → EReal) (w : (⟨2, ![k, f]⟩ : Shape).Idx → EReal) :
    (⟨2, ![n, f]⟩ : Shape).Idx → EReal :=
  fun i => ∑ κ : Fin k, x (ix2 (row i) κ) * w (ix2 κ (col i))

/-- A vector added to every row: entry `(i, j)` is `a (i, j) + b j`. -/
def addRow {n f : Nat} (a : (⟨2, ![n, f]⟩ : Shape).Idx → EReal) (b : (⟨1, ![f]⟩ : Shape).Idx → EReal) :
    (⟨2, ![n, f]⟩ : Shape).Idx → EReal :=
  fun i => a i + b (ix1 (col i))

/-- The rectifier of the biased entry: `max (a (i, j) + b j) 0`. -/
def reluAddRow {n f : Nat} (a : (⟨2, ![n, f]⟩ : Shape).Idx → EReal) (b : (⟨1, ![f]⟩ : Shape).Idx → EReal) :
    (⟨2, ![n, f]⟩ : Shape).Idx → EReal :=
  fun i => max (a i + b (ix1 (col i))) 0

/-- Every row scaled by its own factor, the factors given as a column `[n, 1]`: entry `(e, j)` is `h (e, j) * s (e, 0)`. -/
def scaleRows {n f : Nat} (h : (⟨2, ![n, f]⟩ : Shape).Idx → EReal) (s : (⟨2, ![n, 1]⟩ : Shape).Idx → EReal) :
    (⟨2, ![n, f]⟩ : Shape).Idx → EReal :=
  fun i => h i * s (ix2 (row i) (0 : Fin 1))

end Cert.Gcn

end
-- ==== Proof.KTerms.lean ====
/-
  The kernel program's host computations between its five pallas_calls, as named terms of the edge list.

  The edge list `e : [2, 1600000]` gives the sources (row 0) and the destinations (row 1); every node gets a self loop, so both
  lists are extended by `0, 1, …, 99999` (`src`, `dst`: 1,700,000 entries). A node's degree counts the edges that end in it,
  `dinv` is its inverse square root (zero where the degree is not positive), and the weight of edge `k` is
  `dinv (src k) * dinv (dst k)` (`nrm`). The kernel then PADS the three lists to 1,703,936 = 416 · 4096 entries with the node `0`
  and the weight `0` (`padI`, `padF`) so that its edge-wise scaling runs on whole blocks of 4096 edges.
  One layer (`layer64`, `layer32`) gathers the node rows of the sources, scales each by its edge weight, and adds each scaled
  row into the row of its destination.
-/
import proofs.«170379_j16054587753020_1_alg».proof.KernelIdeal
import proofs.«170379_j16054587753020_1_alg».proof.Proof.Gen.KernelIdeal
import proofs.«170379_j16054587753020_1_alg».proof.Proof.Rows

noncomputable section

namespace Cert.Gcn.K

open Idealize.ShloMosaic Cert.KernelIdeal Cert.KernelIdeal.Facts₀ Cert.Gcn

variable {F : FTy → Type} [FloatOps F]

/-- The sources: row 0 of the edge list, then every node once (its self loop). -/
def src (e : IVec S2x1600000 32) : IVec S1700000 32 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The destinations: row 1 of the edge list, then every node once. -/
def dst (e : IVec S2x1600000 32) : IVec S1700000 32 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A negative node number counts from the end: `v + 100000` where `v < 0`. -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- A list of node numbers as a column of one-entry index vectors. -/
def icol (v : IVec S1700000 32) : IVec S1700000x1 32 := broadcastInDim S1700000x1 ![0] bcast_S1700000_S1700000x1_0 v

/-- A node's degree: the number of edges (self loop included) that end in it. -/
def deg (e : IVec S2x1600000 32) : FVec F S100000 .f32 :=
  Host.scatterAdd scatter_S100000_S1700000x1_S1700000_n_0_0_1 (broadcastInDim S100000 ![] bcast_S_S100000 (constant S_ .f32 0x00000000#32)) (icol (dst e)) (broadcastInDim S1700000 ![] bcast_S_S1700000 (constant S_ .f32 0x3F800000#32))

/-- The inverse square root of the degree, zero where the degree is not positive. -/
def dinv (e : IVec S2x1600000 32) : FVec F S100000 .f32 :=
  select (cmpf (F := F) .ogt (deg e) (broadcastInDim S100000 ![] bcast_S_S100000 (constant S_ .f32 0x00000000#32))) (Host.rsqrt (deg e)) (broadcastInDim S100000 ![] bcast_S_S100000 (id (constant S_ .f32 0x00000000#32)))

/-- The weight of every edge: `dinv` at its source times `dinv` at its destination. -/
def nrm (e : IVec S2x1600000 32) : FVec F S1700000 .f32 :=
  mulf (Host.gather gather_S100000_S1700000x1_S1700000_n_0_n_n_0_1_1 (dinv e) (icol (wrap (src e)))) (Host.gather gather_S100000_S1700000x1_S1700000_n_0_n_n_0_1_1 (dinv e) (icol (wrap (dst e))))

/-- A list of node numbers padded with the node `0` to 416 blocks of 4096. -/
def padI (v : IVec S1700000 32) : IVec S1703936 32 :=
  concatenate S1703936 0 [⟨S1700000, v⟩, ⟨S3936, broadcastInDim S3936 ![] bcast_S_S3936 (constantI S_ 32 0#32)⟩] concatenates_S1700000_S3936_S1703936_d0

/-- The edge weights padded with the weight `0`. -/
def padF (v : FVec F S1700000 .f32) : FVec F S1703936 .f32 :=
  concatenate S1703936 0 [⟨S1700000, v⟩, ⟨S3936, broadcastInDim S3936 ![] bcast_S_S3936 (constant S_ .f32 0x00000000#32)⟩] concatenates_S1700000_S3936_S1703936_d0

/-- `wrap` on the padded list. -/
def wrapP (v : IVec S1703936 32) : IVec S1703936 32 :=
  select (cmpi .slt v (broadcastInDim S1703936 ![] bcast_S_S1703936 (constantI S_ 32 0#32))) (addi v (broadcastInDim S1703936 ![] bcast_S_S1703936 (constantI S_ 32 100000#32))) v

/-- The padded list as a column of one-entry index vectors. -/
def icolP (v : IVec S1703936 32) : IVec S1703936x1 32 := broadcastInDim S1703936x1 ![0] bcast_S1703936_S1703936x1_0 v

/-- The padded weights as a column. -/
def fcolP (v : FVec F S1703936 .f32) : FVec F S1703936x1 .f32 := broadcastInDim S1703936x1 ![0] bcast_S1703936_S1703936x1_0 v

/-- One aggregation over the padded edge list, 64 features: gather the sources' rows of `A`, scale row `k` by weight `k`, add it into the
    row of destination `k`. -/
def layer64 (A : FVec Ideal S100000x64 .f32) (sP dP : IVec S1703936 32) (n2 : FVec Ideal S1703936x1 .f32) : FVec Ideal S100000x64 .f32 :=
  Host.scatterAdd scatter_S100000x64_S1703936x1_S1703936x64_1_0_0_1 (broadcastInDim S100000x64 ![] bcast_S_S100000x64 (constant S_ .f32 0x00000000#32)) (icolP dP)
    (scaleRows (Host.gather gather_S100000x64_S1703936x1_S1703936x64_1_0_n_n_0_1_164 A (icolP (wrapP sP))) n2)

/-- The same over 32 features. -/
def layer32 (A : FVec Ideal S100000x32 .f32) (sP dP : IVec S1703936 32) (n2 : FVec Ideal S1703936x1 .f32) : FVec Ideal S100000x32 .f32 :=
  Host.scatterAdd scatter_S100000x32_S1703936x1_S1703936x32_1_0_0_1 (broadcastInDim S100000x32 ![] bcast_S_S100000x32 (constant S_ .f32 0x00000000#32)) (icolP dP)
    (scaleRows (Host.gather gather_S100000x32_S1703936x1_S1703936x32_1_0_n_n_0_1_132 A (icolP (wrapP sP))) n2)

/-- The kernel program's result as one function of its six arguments. -/
def out (x : FVec Ideal S100000x64 .f32) (e : IVec S2x1600000 32) (W1 : FVec Ideal S64x64 .f32) (b1 : FVec Ideal S64 .f32)
    (W2 : FVec Ideal S64x32 .f32) (b2 : FVec Ideal S32 .f32) : FVec Ideal S100000x32 .f32 :=
  addRow (layer32 (rowsMul (reluAddRow (layer64 (rowsMul x W1) (padI (src e)) (padI (dst e)) (fcolP (padF (nrm e)))) b1) W2)
    (padI (src e)) (padI (dst e)) (fcolP (padF (nrm e)))) b2

end Cert.Gcn.K

end
-- ==== Proof.HostKeep.lean ====
/-
  A stretch of host operations leaves a buffer that none of them writes as it was: the fold of the operations' results over the buffer
  contents, read at a reference different from every operation's result reference, walks through to the contents before the stretch.
-/
import proofs.«170379_j16054587753020_1_alg».proof.Proof.Gen.KernelIdeal.Frame
import Idealize.ShloMosaic.Lib.StableHlo.Run

namespace Cert.Gcn

open Idealize.ShloMosaic Cert.KernelIdeal.Gen

/-- Closes `StableHlo.after ops V b = V b` for one of the kernel program's seven host stretches `ops` and a reference `b` that no operation of
    the stretch writes: every operation's result reference differs from `b`, decided reference by reference. -/
macro "keep_host" : tactic => `(tactic| (
  refine Idealize.ShloMosaic.StableHlo.after_of_forall_not_mem _ _ (List.forall_iff_forall_mem.mp ?_)
  simp only [Cert.KernelIdeal.Gen.hostOps0, Cert.KernelIdeal.Gen.hostOps0_1, Cert.KernelIdeal.Gen.hostOps0_2, Cert.KernelIdeal.Gen.hostOps1,
    Cert.KernelIdeal.Gen.hostOps2, Cert.KernelIdeal.Gen.hostOps3, Cert.KernelIdeal.Gen.hostOps4, List.flatten_cons, List.flatten_nil, List.append_nil,
    List.cons_append, List.nil_append, List.Forall, Idealize.ShloMosaic.StableHlo.nullary_writes, Idealize.ShloMosaic.StableHlo.unary_writes,
    Idealize.ShloMosaic.StableHlo.binary_writes, Idealize.ShloMosaic.StableHlo.ternary_writes, Idealize.ShloMosaic.StableHlo.quaternary_writes,
    Idealize.ShloMosaic.StableHlo.reshape_writes, Idealize.ShloMosaic.StableHlo.binaryIndexed_writes, Finset.mem_singleton]
  repeat' apply And.intro
  all_goals exact Idealize.ShloMosaic.StableHlo.devRef_ne_of_ne (by decide)))

end Cert.Gcn
-- ==== Proof.Walks.lean ====
/- Each buffer below is written before the first pallas_call (or is an argument) and only read afterwards, so at a later boundary of @main it holds
   what it held at an earlier one: a host stretch leaves a buffer it does not write (`keep_host`), a call leaves every buffer that is not one of
   its arrays (`Gen.WK_of_ne`) and leaves an input array as it found it (`Dat.arrAt_in`). One calc step per boundary crossed. -/
import proofs.«170379_j16054587753020_1_alg».proof.Proof.HostKeep

set_option maxRecDepth 16384

noncomputable section

namespace Cert.Gcn.Walks

open Idealize.ShloMosaic Idealize.ShloMosaic.TcCoe Idealize.ShloMosaic.StableHlo Idealize.SL.Sem
open Cert.KernelIdeal Cert.KernelIdeal.Facts₀ Cert.KernelIdeal.Gen Cert.Gcn

variable {F : FTy → Type} [FloatOps F]
variable (m : (ℓ : Loc nD τ sig) → Buf (Elt F) ℓ) (ρ : Dev nD → PrngReg)

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by keep_host
    _ = W1 m ρ c (Proc.devRef .tc main_arg0) := by keep_host
    _ = W0 m ρ c (Proc.devRef .tc main_arg0) := by keep_host
    _ = m ((c : Thread nD τ).loc main_arg0) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by keep_host
    _ = W1 m ρ c (Proc.devRef .tc main_arg2) := by keep_host
    _ = W0 m ρ c (Proc.devRef .tc main_arg2) := by keep_host
    _ = m ((c : Thread nD τ).loc main_arg2) := rfl

theorem W7_arg3 (c : Dev nD) : W7 m ρ c (Proc.devRef .tc main_arg3) = m ((c : Thread nD τ).loc main_arg3) :=
  calc W7 m ρ c (Proc.devRef .tc main_arg3)
    _ = W6 m ρ c (Proc.devRef .tc main_arg3) := by keep_host
    _ = W5 m ρ c (Proc.devRef .tc main_arg3) := W6_of_ne m ρ c main_arg3 (by decide)
    _ = W4 m ρ c (Proc.devRef .tc main_arg3) := by keep_host
    _ = W3 m ρ c (Proc.devRef .tc main_arg3) := W4_of_ne m ρ c main_arg3 (by decide)
    _ = W2 m ρ c (Proc.devRef .tc main_arg3) := by keep_host
    _ = W1 m ρ c (Proc.devRef .tc main_arg3) := by keep_host
    _ = W0 m ρ c (Proc.devRef .tc main_arg3) := by keep_host
    _ = m ((c : Thread nD τ).loc main_arg3) := rfl

theorem W7_arg4 (c : Dev nD) : W7 m ρ c (Proc.devRef .tc main_arg4) = m ((c : Thread nD τ).loc main_arg4) :=
  calc W7 m ρ c (Proc.devRef .tc main_arg4)
    _ = W6 m ρ c (Proc.devRef .tc main_arg4) := by keep_host
    _ = W5 m ρ c (Proc.devRef .tc main_arg4) := W6_of_ne m ρ c main_arg4 (by decide)
    _ = W4 m ρ c (Proc.devRef .tc main_arg4) := by keep_host
    _ = W3 m ρ c (Proc.devRef .tc main_arg4) := W4_of_ne m ρ c main_arg4 (by decide)
    _ = W2 m ρ c (Proc.devRef .tc main_arg4) := by keep_host
    _ = W1 m ρ c (Proc.devRef .tc main_arg4) := by keep_host
    _ = W0 m ρ c (Proc.devRef .tc main_arg4) := by keep_host
    _ = m ((c : Thread nD τ).loc main_arg4) := rfl

theorem W11_arg5 (c : Dev nD) : W11 m ρ c (Proc.devRef .tc main_arg5) = m ((c : Thread nD τ).loc main_arg5) :=
  calc W11 m ρ c (Proc.devRef .tc main_arg5)
    _ = W10 m ρ c (Proc.devRef .tc main_arg5) := by keep_host
    _ = W9 m ρ c (Proc.devRef .tc main_arg5) := W10_of_ne m ρ c main_arg5 (by decide)
    _ = W8 m ρ c (Proc.devRef .tc main_arg5) := by keep_host
    _ = W7 m ρ c (Proc.devRef .tc main_arg5) := W8_of_ne m ρ c main_arg5 (by decide)
    _ = W6 m ρ c (Proc.devRef .tc main_arg5) := by keep_host
    _ = W5 m ρ c (Proc.devRef .tc main_arg5) := W6_of_ne m ρ c main_arg5 (by decide)
    _ = W4 m ρ c (Proc.devRef .tc main_arg5) := by keep_host
    _ = W3 m ρ c (Proc.devRef .tc main_arg5) := W4_of_ne m ρ c main_arg5 (by decide)
    _ = W2 m ρ c (Proc.devRef .tc main_arg5) := by keep_host
    _ = W1 m ρ c (Proc.devRef .tc main_arg5) := by keep_host
    _ = W0 m ρ c (Proc.devRef .tc main_arg5) := by keep_host
    _ = m ((c : Thread nD τ).loc main_arg5) := rfl

theorem W4_v32 (c : Dev nD) : W4 m ρ c (Proc.devRef .tc main_v32) = W3 m ρ c (Proc.devRef .tc main_v32) :=
  calc W4 m ρ c (Proc.devRef .tc main_v32)
    _ = W3 m ρ c (Proc.devRef .tc main_v32) := W4_of_ne m ρ c main_v32 (by decide)

theorem W8_v32 (c : Dev nD) : W8 m ρ c (Proc.devRef .tc main_v32) = W3 m ρ c (Proc.devRef .tc main_v32) :=
  calc W8 m ρ c (Proc.devRef .tc main_v32)
    _ = W7 m ρ c (Proc.devRef .tc main_v32) := W8_of_ne m ρ c main_v32 (by decide)
    _ = W6 m ρ c (Proc.devRef .tc main_v32) := by keep_host
    _ = W5 m ρ c (Proc.devRef .tc main_v32) := W6_of_ne m ρ c main_v32 (by decide)
    _ = W4 m ρ c (Proc.devRef .tc main_v32) := by keep_host
    _ = W3 m ρ c (Proc.devRef .tc main_v32) := W4_of_ne m ρ c main_v32 (by decide)

theorem W6_v33 (c : Dev nD) : W6 m ρ c (Proc.devRef .tc main_v33) = W3 m ρ c (Proc.devRef .tc main_v33) :=
  calc W6 m ρ c (Proc.devRef .tc main_v33)
    _ = W5 m ρ c (Proc.devRef .tc main_v33) := W6_of_ne m ρ c main_v33 (by decide)
    _ = W4 m ρ c (Proc.devRef .tc main_v33) := by keep_host
    _ = W3 m ρ c (Proc.devRef .tc main_v33) := W4_of_ne m ρ c main_v33 (by decide)

theorem W10_v33 (c : Dev nD) : W10 m ρ c (Proc.devRef .tc main_v33) = W3 m ρ c (Proc.devRef .tc main_v33) :=
  calc W10 m ρ c (Proc.devRef .tc main_v33)
    _ = W9 m ρ c (Proc.devRef .tc main_v33) := W10_of_ne m ρ c main_v33 (by decide)
    _ = W8 m ρ c (Proc.devRef .tc main_v33) := by keep_host
    _ = W7 m ρ c (Proc.devRef .tc main_v33) := W8_of_ne m ρ c main_v33 (by decide)
    _ = W6 m ρ c (Proc.devRef .tc main_v33) := by keep_host
    _ = W5 m ρ c (Proc.devRef .tc main_v33) := W6_of_ne m ρ c main_v33 (by decide)
    _ = W4 m ρ c (Proc.devRef .tc main_v33) := by keep_host
    _ = W3 m ρ c (Proc.devRef .tc main_v33) := W4_of_ne m ρ c main_v33 (by decide)

theorem W5_v35 (c : Dev nD) : W5 m ρ c (Proc.devRef .tc main_v35) = W3 m ρ c (Proc.devRef .tc main_v35) :=
  calc W5 m ρ c (Proc.devRef .tc main_v35)
    _ = W4 m ρ c (Proc.devRef .tc main_v35) := by keep_host
    _ = W3 m ρ c (Proc.devRef .tc main_v35) := W4_of_ne m ρ c main_v35 (by decide)

theorem W9_v35 (c : Dev nD) : W9 m ρ c (Proc.devRef .tc main_v35) = W3 m ρ c (Proc.devRef .tc main_v35) :=
  calc W9 m ρ c (Proc.devRef .tc main_v35)
    _ = W8 m ρ c (Proc.devRef .tc main_v35) := by keep_host
    _ = W7 m ρ c (Proc.devRef .tc main_v35) := W8_of_ne m ρ c main_v35 (by decide)
    _ = W6 m ρ c (Proc.devRef .tc main_v35) := by keep_host
    _ = W5 m ρ c (Proc.devRef .tc main_v35) := (W6_arr m ρ c 1).trans (((dat1 (V5 m ρ) c).arrAt_in 1 rfl _).trans (A_eq1 (V5 m ρ) c 1))
    _ = W4 m ρ c (Proc.devRef .tc main_v35) := by keep_host
    _ = W3 m ρ c (Proc.devRef .tc main_v35) := W4_of_ne m ρ c main_v35 (by decide)

end Cert.Gcn.Walks

end
-- ==== Proof.Host0.lean ====
/-
  Before the first pallas_call the kernel program computes, from the edge list alone, the padded lists of sources and destinations and the padded
  column of edge weights. Here the three buffers are read off the fold of the 48 host operations before that call: each holds the named term
  (`K.padI (K.src e)`, `K.padI (K.dst e)`, `K.fcolP (K.padF (K.nrm e))`) of the launch contents `e` of the edge list — at any float family, since
  the stretch only moves words and applies the family's own operations.
-/
import proofs.«170379_j16054587753020_1_alg».proof.Proof.Gen.KernelIdeal.Frame
import proofs.«170379_j16054587753020_1_alg».proof.Proof.KTerms
import Idealize.ShloMosaic.Lib.StableHlo.Run

set_option maxRecDepth 16384

noncomputable section

namespace Cert.Gcn.Host0

open Idealize.ShloMosaic Idealize.ShloMosaic.TcCoe Idealize.ShloMosaic.StableHlo Idealize.SL.Sem
open Cert.KernelIdeal Cert.KernelIdeal.Gen Cert.Gcn

variable {F : FTy → Type} [FloatOps F]
variable (m : (ℓ : Loc nD τ sig) → Buf (Elt F) ℓ) (ρ : Dev nD → PrngReg)

/-! The fold of the three stretches' operations is rewritten to the operations' composed term in one pass; inside a concatenation's list of operands
the remaining results are rewritten one by one. -/

set_option maxHeartbeats 4000000 in
theorem W3_v32 (c : Dev nD) :
    (W3 m ρ c (Proc.devRef .tc main_v32) : IVec S1703936 32) = K.padI (K.src (m ((c : Thread nD τ).loc main_arg1))) := by
  show StableHlo.after hostOps0_2 (StableHlo.after hostOps0_1 (StableHlo.after hostOps0 (W0 m ρ c))) (Proc.devRef .tc main_v32) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 4000000 in
theorem W3_v33 (c : Dev nD) :
    (W3 m ρ c (Proc.devRef .tc main_v33) : IVec S1703936 32) = K.padI (K.dst (m ((c : Thread nD τ).loc main_arg1))) := by
  show StableHlo.after hostOps0_2 (StableHlo.after hostOps0_1 (StableHlo.after hostOps0 (W0 m ρ c))) (Proc.devRef .tc main_v33) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 4000000 in
theorem W3_v35 (c : Dev nD) :
    (W3 m ρ c (Proc.devRef .tc main_v35) : FVec F S1703936x1 .f32) = K.fcolP (F := F) (K.padF (K.nrm (m ((c : Thread nD τ).loc main_arg1)))) := by
  show StableHlo.after hostOps0_2 (StableHlo.after hostOps0_1 (StableHlo.after hostOps0 (W0 m ρ c))) (Proc.devRef .tc main_v35) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

end Cert.Gcn.Host0

end
-- ==== Proof.Reg0.lean ====
import proofs.«170379_j16054587753020_1_alg».proof.Proof.Gen.KernelIdeal.Frame
import proofs.«170379_j16054587753020_1_alg».proof.Proof.Rows
import Idealize.ShloMosaic.Lib.Pipeline.Value
import Idealize.ShloMosaic.Lib.ValueLayout
import Idealize.ShloMosaic.PureOps.Ideal.Laws

noncomputable section

namespace Cert.Gcn.Reg0

open Idealize.ShloMosaic Idealize.ShloMosaic.TcCoe Idealize.ShloMosaic.ValueIdx Idealize.SL.Sem
open Cert.KernelIdeal Cert.KernelIdeal.Facts₀ Cert.KernelIdeal.Gen Cert.Gcn

variable (V : (c : Dev nD) → (b : Ref sig .tc) → Buf (Elt Ideal) ((c : Thread nD τ).loc b))

/-! ## The block product at an entry

The dimension numbers of the block product contract the left operand's axis 1 with the right operand's axis 0; the
left operand's axis 0 and the right operand's axis 1 are the result's two axes. So at result entry `(p, q)` and
contraction coordinate `κ` the left operand is read at `(p, κ)` and the right one at `(κ, q)`. -/

theorem lhs_0 (j : S2000x64.Idx) (k : dot_S2000x64_S64x64_S2000x64_1_0_0_1_n_n.contr.Idx) :
    (dot_S2000x64_S64x64_S2000x64_1_0_0_1_n_n.lhsIdx j k 0 : ℕ) = j 0 := by
  simp [DotDims.lhsIdx, dot_S2000x64_S64x64_S2000x64_1_0_0_1_n_n]; rfl
theorem lhs_1 (j : S2000x64.Idx) (k : dot_S2000x64_S64x64_S2000x64_1_0_0_1_n_n.contr.Idx) :
    (dot_S2000x64_S64x64_S2000x64_1_0_0_1_n_n.lhsIdx j k 1 : ℕ) = k ⟨0, by decide⟩ := by
  simp [DotDims.lhsIdx, dot_S2000x64_S64x64_S2000x64_1_0_0_1_n_n]; rfl
theorem rhs_0 (j : S2000x64.Idx) (k : dot_S2000x64_S64x64_S2000x64_1_0_0_1_n_n.contr.Idx) :
    (dot_S2000x64_S64x64_S2000x64_1_0_0_1_n_n.rhsIdx j k 0 : ℕ) = k ⟨0, by decide⟩ := by
  simp [DotDims.rhsIdx, dot_S2000x64_S64x64_S2000x64_1_0_0_1_n_n]; rfl
theorem rhs_1 (j : S2000x64.Idx) (k : dot_S2000x64_S64x64_S2000x64_1_0_0_1_n_n.contr.Idx) :
    (dot_S2000x64_S64x64_S2000x64_1_0_0_1_n_n.rhsIdx j k 1 : ℕ) = j 1 := by
  simp [DotDims.rhsIdx, dot_S2000x64_S64x64_S2000x64_1_0_0_1_n_n]; rfl

/-- The body's payload at entry `(p, q)` of the block: the narrowing of both operands is the identity on the extended
    reals, the accumulator is the zero splat, so what is left is the sum over the 64 shared coordinates of the products. -/
theorem pay_apply (x : Vec Ideal S2000x64 .f32) (w : Vec Ideal S64x64 .f32) (p : Fin 2000) (q : Fin 64) :
    k0_pay1 x w (ix2 p q) = ∑ κ : Fin 64, x (ix2 p κ) * w (ix2 κ q) := by
  unfold k0_pay1
  simp only [matmul]
  rw [Ideal.matmul_constant_zero_apply,
    ← Equiv.sum_comp (contrEquiv1 dot_S2000x64_S64x64_S2000x64_1_0_0_1_n_n 64 rfl rfl).symm]
  refine Finset.sum_congr rfl fun κ _ => ?_
  have hk := contrEquiv1_symm_val dot_S2000x64_S64x64_S2000x64_1_0_0_1_n_n 64 rfl rfl κ
  rw [truncf_apply, truncf_apply]
  have hl : dot_S2000x64_S64x64_S2000x64_1_0_0_1_n_n.lhsIdx (ix2 p q)
      ((contrEquiv1 dot_S2000x64_S64x64_S2000x64_1_0_0_1_n_n 64 rfl rfl).symm κ) = ix2 p κ := by
    funext a; apply Fin.ext
    match a with
    | ⟨0, _⟩ => exact lhs_0 _ _
    | ⟨1, _⟩ => exact (lhs_1 _ _).trans hk
  have hr : dot_S2000x64_S64x64_S2000x64_1_0_0_1_n_n.rhsIdx (ix2 p q)
      ((contrEquiv1 dot_S2000x64_S64x64_S2000x64_1_0_0_1_n_n 64 rfl rfl).symm κ) = ix2 κ q := by
    funext a; apply Fin.ext
    match a with
    | ⟨0, _⟩ => exact (rhs_0 _ _).trans hk
    | ⟨1, _⟩ => exact rhs_1 _ _
  rw [hl, hr]

/-! ## From the blocks to the array

Point `t` of the 50 works on rows `2000 t … 2000 t + 1999`: the feature window's and the result window's block row is
the grid coordinate and their block column is 0; the weight window is the whole matrix, block (0, 0), at every point. -/

theorem hz : (![0, 0] : Fin 2 → Nat) = fun _ => 0 := funext fun a => by fin_cases a <;> rfl

/-- The printed index maps, decided once over the 50 points. -/
theorem idx_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0)

/-- The feature block at point `t`, entry `(p, κ)`, is the feature matrix at row `2000 t + p`, column `κ`. -/
theorem xblk_apply (c : Dev nD) (t : Fin cfg0.N) (p : Fin 2000) (κ : Fin 64) (r : Fin 100000)
    (hr : r.val = 2000 * t.val + p.val) :
    (iblk0 V c 0 t : S2000x64.Idx → EReal) (ix2 p κ) = (V c main_arg0 : S100000x64.Idx → EReal) (ix2 r κ) := by
  obtain ⟨-, -, e0, e1, -, -⟩ := idx_facts t
  show V c main_arg0 (((cfg0.win 0).blk t).view.emb (ix2 p κ)) = V c main_arg0 (ix2 r κ)
  refine congrArg _ ?_
  funext a; apply Fin.ext
  match a with
  | ⟨0, _⟩ => show win0_0.index t (0 : Fin 2) * 2000 + 1 * p.val = r.val; omega
  | ⟨1, _⟩ => show win0_0.index t (1 : Fin 2) * 64 + 1 * κ.val = κ.val; omega

/-- The weight block at any point is the weight matrix itself. -/
theorem wblk_apply (c : Dev nD) (t : Fin cfg0.N) (κ : Fin 64) (q : Fin 64) :
    (iblk0 V c 1 t : S64x64.Idx → EReal) (ix2 κ q) = (V c main_arg2 : S64x64.Idx → EReal) (ix2 κ q) := by
  obtain ⟨-, -, -, -, e0, e1⟩ := idx_facts t
  show V c main_arg2 (((cfg0.win 1).blk t).view.emb (ix2 κ q)) = V c main_arg2 (ix2 κ q)
  refine congrArg _ ?_
  funext a; apply Fin.ext
  match a with
  | ⟨0, _⟩ => show win0_1.index t (0 : Fin 2) * 64 + 1 * κ.val = κ.val; omega
  | ⟨1, _⟩ => show win0_1.index t (1 : Fin 2) * 64 + 1 * q.val = q.val; omega

/-- What point `t` writes back is block `t` of the product of the feature matrix by the weight matrix. -/
theorem flushed_eq (c : Dev nD) (t : Fin cfg0.N) :
    (dat0 (F := Ideal) V c).flushed 2 t = ((cfg0.win 2).blk t).view.read (Elt Ideal)
      (rowsMul (V c main_arg0 : S100000x64.Idx → EReal) (V c main_arg2 : S64x64.Idx → EReal)) := by
  show (cfg0.win 2).cut (grid0.coords t) ((dat0 V c).after 2 t) = _
  rw [after0_2]
  unfold out0_2
  rw [View.canon_unit_zero hz]
  simp only [View.ld_unit_zero (S := S2000x64) hz, View.ld_unit_zero (S := S64x64) hz]
  obtain ⟨e0, e1, -, -, -, -⟩ := idx_facts t
  funext j
  obtain ⟨p, q, rfl⟩ : ∃ (p : Fin 2000) (q : Fin 64), j = ix2 p q := ⟨j 0, j 1, eq_ix2 j⟩
  show k0_pay1 (iblk0 V c 0 t) (iblk0 V c 1 t) (ix2 p q)
    = rowsMul (V c main_arg0 : S100000x64.Idx → EReal) (V c main_arg2 : S64x64.Idx → EReal)
        (((cfg0.win 2).blk t).view.emb (ix2 p q))
  rw [pay_apply]
  unfold rowsMul
  refine Finset.sum_congr rfl fun κ _ => ?_
  rw [xblk_apply V c t p κ (row (((cfg0.win 2).blk t).view.emb (ix2 p q))) (by
      show win0_2.index t (0 : Fin 2) * 2000 + 1 * p.val = 2000 * t.val + p.val; omega),
    wblk_apply V c t κ q]
  refine congrArg _ (congrArg _ ?_)
  funext a; apply Fin.ext
  match a with
  | ⟨0, _⟩ => rfl
  | ⟨1, _⟩ => show q.val = win0_2.index t (1 : Fin 2) * 64 + 1 * q.val; omega

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v36).slice (win0_2.rect t)).set ↔ _
  rw [View.set_slice_whole, Rect.mem_set_unit]
  exact Iff.rfl

/-- The 50 row blocks tile the array: row `r` is in the block of point `r / 2000`. -/
theorem cover (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 50 := N_0
  have ht : (i 0).val / 2000 < cfg0.N := by rw [hN]; omega
  obtain ⟨e0, e1, -, -, -, -⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 64 ≤ (i 1).val
      ∧ (i 1).val < win0_2.index ⟨(i 0).val / 2000, ht⟩ (1 : Fin 2) * 64 + 64
    rw [e1]; omega

/-- The result array after the region: the feature matrix times the weight matrix, entry by entry. -/
theorem final0 (c : Dev nD) :
    ((dat0 (F := Ideal) V c).arrAt 2 cfg0.N : S100000x64.Idx → EReal)
      = rowsMul (V c main_arg0 : S100000x64.Idx → EReal) (V c main_arg2 : S64x64.Idx → EReal) :=
  (dat0 (F := Ideal) V c).arrAt_eq_of_cover 2
    (rowsMul (V c main_arg0 : S100000x64.Idx → EReal) (V c main_arg2 : S64x64.Idx → EReal))
    (fun t _ => flushed_eq V c t) cover

end Cert.Gcn.Reg0

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Reg1.lean ====
/-
  Region 1 of the layer: every gathered source row scaled by its edge's normalization factor.

  The grid has 416 points; point t holds rows 4096 t .. 4096 t + 4095 of the three arrays (the 64-wide features, the
  one-wide column of factors, the 64-wide result). On its block the body multiplies entry (p, q) of the features by the
  factor in row p, the column of factors being spread along the 64 features. So what point t writes back is block t
  of ONE function of the two whole arrays, `scaleRows`; the 416 blocks tile the 1703936 rows, hence the array ends
  holding that function.
-/
import proofs.«170379_j16054587753020_1_alg».proof.Proof.Gen.KernelIdeal.Frame
import proofs.«170379_j16054587753020_1_alg».proof.Proof.Rows
import proofs.«170379_j16054587753020_1_alg».proof.Proof.LibKeepdims
import Idealize.ShloMosaic.Lib.Pipeline.Value
import Idealize.ShloMosaic.Lib.ValueLayout
import Idealize.ShloMosaic.PureOps.Ideal.Laws

noncomputable section

namespace Cert.Gcn.Reg1

open Idealize.ShloMosaic Idealize.ShloMosaic.TcCoe Idealize.ShloMosaic.ValueIdx Idealize.SL.Sem
open Cert.KernelIdeal Cert.KernelIdeal.Facts₀ Cert.KernelIdeal.Gen Cert.Gcn

variable (V : (c : Dev nD) → (b : Ref sig .tc) → Buf (Elt Ideal) ((c : Thread nD τ).loc b))

/-- The body's one store starts at the origin of its block. -/
theorem origin : (![0, 0] : Fin 2 → Nat) = fun _ => 0 :=
  funext fun a => by match a with | ⟨0, _⟩ => rfl | ⟨1, _⟩ => rfl

/-- The body at entry (p, q) of a block: the feature times the factor of row p. The two same-shape casts are
    identities, the column of factors broadcast along the features reads its row. -/
theorem pay_apply (x0 : Vec Ideal S4096x64 .f32) (x1 : Vec Ideal S4096x1 .f32) (p : Fin 4096) (q : Fin 64) :
    k1_pay1 x0 x1 (ix2 p q) = x0 (ix2 p q) * x1 (ix2 p (0 : Fin 1)) := by
  unfold k1_pay1
  rw [mulf_apply, shapeCast_self, shapeCast_self, Cert.LibKeepdims.broadcastTo_a1_ab_apply]

/-- The printed index maps over the 416 points: all three windows sit at block row t, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- One block against the whole arrays. If a block of features is the features `h` read along a map `e` of indices, and
    a block of factors is the factors `s` read along `e'`, and `e'` sends row p of the column to the row `e` sends (p, q)
    to, then the body's entry (p, q) is the scaled rows' entry at `e (p, q)`. -/
theorem block_apply (x0 : Vec Ideal S4096x64 .f32) (x1 : Vec Ideal S4096x1 .f32)
    (h : S1703936x64.Idx → EReal) (s : S1703936x1.Idx → EReal)
    (e : S4096x64.Idx → S1703936x64.Idx) (e' : S4096x1.Idx → S1703936x1.Idx)
    (hx0 : ∀ y, x0 y = h (e y)) (hx1 : ∀ y, x1 y = s (e' y))
    (hrow : ∀ (p : Fin 4096) (q : Fin 64), e' (ix2 p (0 : Fin 1)) = ix2 (row (e (ix2 p q))) (0 : Fin 1))
    (p : Fin 4096) (q : Fin 64) :
    k1_pay1 x0 x1 (ix2 p q) = scaleRows h s (e (ix2 p q)) := by
  rw [pay_apply, hx0, hx1, hrow p q]
  rfl

/-- WHAT POINT t WRITES BACK is block t of the scaled rows of the two arrays as the region finds them. -/
theorem flushed_eq (c : Dev nD) (t : Fin cfg1.N) :
    (dat1 (F := Ideal) V c).flushed 2 t = ((cfg1.win 2).blk t).view.read (Elt Ideal)
      (scaleRows (V c main_v43 : S1703936x64.Idx → EReal) (V c main_v35 : S1703936x1.Idx → EReal)) := by
  show (cfg1.win 2).cut (grid1.coords t) ((dat1 V c).after 2 t) = _
  rw [after1_2]
  unfold out1_2
  rw [View.canon_unit_zero origin]
  simp only [View.ld_unit_zero (S := S4096x64) origin, View.ld_unit_zero (S := S4096x1) origin]
  obtain ⟨a0, a1, b0, b1, r0, r1⟩ := idx_facts t
  funext j
  obtain ⟨p, q, rfl⟩ : ∃ (p : Fin 4096) (q : Fin 64), j = ix2 p q := ⟨j 0, j 1, eq_ix2 j⟩
  refine block_apply (iblk1 V c 0 t) (iblk1 V c 1 t) (V c main_v43) (V c main_v35)
    ((cfg1.win 2).blk t).view.emb ((cfg1.win 1).blk t).view.emb (fun y => ?_) (fun y => rfl) (fun p q => ?_) p q
  · -- the features' block sits where the result's does
    show V c main_v43 (((cfg1.win 0).blk t).view.emb y) = V c main_v43 (((cfg1.win 2).blk t).view.emb y)
    refine congrArg _ (funext fun a => Fin.ext ?_)
    match a with
    | ⟨0, _⟩ =>
      show win1_0.index t (0 : Fin 2) * 4096 + 1 * (y 0).val = win1_2.index t (0 : Fin 2) * 4096 + 1 * (y 0).val
      omega
    | ⟨1, _⟩ =>
      show win1_0.index t (1 : Fin 2) * 64 + 1 * (y 1).val = win1_2.index t (1 : Fin 2) * 64 + 1 * (y 1).val
      omega
  · -- the factors' block holds the same rows, in its one column
    refine funext fun a => Fin.ext ?_
    match a with
    | ⟨0, _⟩ =>
      show win1_1.index t (0 : Fin 2) * 4096 + 1 * p.val = win1_2.index t (0 : Fin 2) * 4096 + 1 * p.val
      omega
    | ⟨1, _⟩ =>
      show win1_1.index t (1 : Fin 2) * 1 + 1 * 0 = 0
      omega

/-- An index of the result array lies in point t's block iff, on each axis, it lies in the block's range. -/
theorem mem_blk (t : Fin cfg1.N) (i : S1703936x64.Idx) :
    i ∈ ((cfg1.win 2).blk t).view.set ↔
      ∀ a : Fin 2, win1_2.index t a * S4096x64.size a ≤ (i a).val
        ∧ (i a).val < win1_2.index t a * S4096x64.size a + S4096x64.size a := by
  show i ∈ ((View.whole main_v44).slice (win1_2.rect t)).set ↔ _
  rw [View.set_slice_whole, Rect.mem_set_unit]
  exact Iff.rfl

/-- The 416 blocks of 4096 rows tile the 1703936 rows: row r belongs to the block of point r / 4096, and the one block
    column is the whole width. -/
theorem cover (i : S1703936x64.Idx) :
    ∃ t : Fin cfg1.N, (cfg1.win 2).flush t = true ∧ i ∈ ((cfg1.win 2).blk t).view.set := by
  have hr : (i 0).val < 1703936 := idx2_lt0 i
  have hq : (i 1).val < 64 := idx2_lt1 i
  have hlt : (i 0).val / 4096 < cfg1.N := by
    rw [show cfg1.N = 416 from N_1]; omega
  obtain ⟨-, -, -, -, r0, r1⟩ := idx_facts ⟨(i 0).val / 4096, hlt⟩
  have r0' : win1_2.index ⟨(i 0).val / 4096, hlt⟩ (0 : Fin 2) = (i 0).val / 4096 := r0
  refine ⟨⟨(i 0).val / 4096, hlt⟩, flush1_2 _, ?_⟩
  rw [mem_blk]
  intro a
  match a with
  | ⟨0, _⟩ =>
    show win1_2.index ⟨(i 0).val / 4096, hlt⟩ (0 : Fin 2) * 4096 ≤ (i 0).val
      ∧ (i 0).val < win1_2.index ⟨(i 0).val / 4096, hlt⟩ (0 : Fin 2) * 4096 + 4096
    omega
  | ⟨1, _⟩ =>
    show win1_2.index ⟨(i 0).val / 4096, hlt⟩ (1 : Fin 2) * 64 ≤ (i 1).val
      ∧ (i 1).val < win1_2.index ⟨(i 0).val / 4096, hlt⟩ (1 : Fin 2) * 64 + 64
    omega

/-- The result array after the region: every row of the gathered features scaled by its edge's factor. -/
theorem final1 (c : Dev nD) :
    ((dat1 (F := Ideal) V c).arrAt 2 cfg1.N : S1703936x64.Idx → EReal)
      = scaleRows (V c main_v43 : S1703936x64.Idx → EReal) (V c main_v35 : S1703936x1.Idx → EReal) :=
  (dat1 (F := Ideal) V c).arrAt_eq_of_cover 2
    (scaleRows (V c main_v43 : S1703936x64.Idx → EReal) (V c main_v35 : S1703936x1.Idx → EReal))
    (fun t _ => flushed_eq V c t) cover

end Cert.Gcn.Reg1

end
-- ==== Proof.Reg2.lean ====
import proofs.«170379_j16054587753020_1_alg».proof.Proof.Gen.KernelIdeal.Frame
import proofs.«170379_j16054587753020_1_alg».proof.Proof.Rows
import Idealize.ShloMosaic.Lib.Pipeline.Value
import Idealize.ShloMosaic.Lib.ValueLayout
import Idealize.ShloMosaic.PureOps.Ideal.Laws

noncomputable section

namespace Cert.Gcn.Reg2

open Idealize.ShloMosaic Idealize.ShloMosaic.TcCoe Idealize.ShloMosaic.ValueIdx Idealize.SL.Sem
open Cert.KernelIdeal Cert.KernelIdeal.Facts₀ Cert.KernelIdeal.Gen Cert.Gcn

variable (V : (c : Dev nD) → (b : Ref sig .tc) → Buf (Elt Ideal) ((c : Thread nD τ).loc b))

/-! ## The block product at an entry

The dimension numbers of the block product contract the left operand's axis 1 with the right operand's axis 0; the
left operand's axis 0 and the right operand's axis 1 are the result's two axes. So at result entry `(p, q)` and
contraction coordinate `κ` the left operand is read at `(p, κ)` and the right one at `(κ, q)`. -/

theorem lhs_0 (j : S2000x32.Idx) (k : dot_S2000x64_S64x32_S2000x32_1_0_0_1_n_n.contr.Idx) :
    (dot_S2000x64_S64x32_S2000x32_1_0_0_1_n_n.lhsIdx j k 0 : ℕ) = j 0 := by
  simp [DotDims.lhsIdx, dot_S2000x64_S64x32_S2000x32_1_0_0_1_n_n]; rfl
theorem lhs_1 (j : S2000x32.Idx) (k : dot_S2000x64_S64x32_S2000x32_1_0_0_1_n_n.contr.Idx) :
    (dot_S2000x64_S64x32_S2000x32_1_0_0_1_n_n.lhsIdx j k 1 : ℕ) = k ⟨0, by decide⟩ := by
  simp [DotDims.lhsIdx, dot_S2000x64_S64x32_S2000x32_1_0_0_1_n_n]; rfl
theorem rhs_0 (j : S2000x32.Idx) (k : dot_S2000x64_S64x32_S2000x32_1_0_0_1_n_n.contr.Idx) :
    (dot_S2000x64_S64x32_S2000x32_1_0_0_1_n_n.rhsIdx j k 0 : ℕ) = k ⟨0, by decide⟩ := by
  simp [DotDims.rhsIdx, dot_S2000x64_S64x32_S2000x32_1_0_0_1_n_n]; rfl
theorem rhs_1 (j : S2000x32.Idx) (k : dot_S2000x64_S64x32_S2000x32_1_0_0_1_n_n.contr.Idx) :
    (dot_S2000x64_S64x32_S2000x32_1_0_0_1_n_n.rhsIdx j k 1 : ℕ) = j 1 := by
  simp [DotDims.rhsIdx, dot_S2000x64_S64x32_S2000x32_1_0_0_1_n_n]; rfl

/-- The bias vector laid out as one row `[1, 64]` and repeated down the 2000 rows reads, at `(p, κ)`, its entry `κ`. -/
theorem biasRows_apply (b : Vec Ideal S64 .f32) (hc : S64.ShapeCasts S1x64) (hb : S1x64.Broadcasts S2000x64)
    (p : Fin 2000) (κ : Fin 64) :
    broadcastTo S2000x64 (shapeCast S1x64 b hc) hb (ix2 p κ) = b (ix1 κ) := by
  rw [broadcastTo_apply _ _ (ix2 p κ) (ix2 (0 : Fin 1) κ) (fun a => by
    match a with
    | ⟨0, _⟩ => rfl
    | ⟨1, _⟩ => rfl)]
  rw [shapeCast_addUnit_apply]
  refine congrArg b ?_
  funext a
  match a with
  | ⟨0, _⟩ => rfl

/-- The body's payload at entry `(p, q)` of the block: the rectified biased features (the cast of the feature block to
    its own shape is the identity; the zero the maximum is taken with and the accumulator are the extended real 0; the
    narrowing of both operands is the identity) times the weights, summed over the 64 shared coordinates. -/
theorem pay_apply (x : Vec Ideal S2000x64 .f32) (b : Vec Ideal S64 .f32) (w : Vec Ideal S64x32 .f32)
    (p : Fin 2000) (q : Fin 32) :
    k2_pay1 x b w (ix2 p q) = ∑ κ : Fin 64, max (x (ix2 p κ) + b (ix1 κ)) 0 * w (ix2 κ q) := by
  unfold k2_pay1
  simp only [matmul]
  rw [Ideal.matmul_constant_zero_apply,
    ← Equiv.sum_comp (contrEquiv1 dot_S2000x64_S64x32_S2000x32_1_0_0_1_n_n 64 rfl rfl).symm]
  refine Finset.sum_congr rfl fun κ _ => ?_
  have hk := contrEquiv1_symm_val dot_S2000x64_S64x32_S2000x32_1_0_0_1_n_n 64 rfl rfl κ
  have hl : dot_S2000x64_S64x32_S2000x32_1_0_0_1_n_n.lhsIdx (ix2 p q)
      ((contrEquiv1 dot_S2000x64_S64x32_S2000x32_1_0_0_1_n_n 64 rfl rfl).symm κ) = ix2 p κ := by
    funext a; apply Fin.ext
    match a with
    | ⟨0, _⟩ => exact lhs_0 _ _
    | ⟨1, _⟩ => exact (lhs_1 _ _).trans hk
  have hr : dot_S2000x64_S64x32_S2000x32_1_0_0_1_n_n.rhsIdx (ix2 p q)
      ((contrEquiv1 dot_S2000x64_S64x32_S2000x32_1_0_0_1_n_n 64 rfl rfl).symm κ) = ix2 κ q := by
    funext a; apply Fin.ext
    match a with
    | ⟨0, _⟩ => exact (rhs_0 _ _).trans hk
    | ⟨1, _⟩ => exact rhs_1 _ _
  have h0 : (Scalar.ofBits (F := Ideal) .f32 0x00000000#32 : Ideal .f32) = (0 : EReal) := Ideal.ofBits_zero_f32
  rw [truncf_apply, truncf_apply, hl, hr, maximumf_apply, addf_apply, broadcast_apply, shapeCast_self, biasRows_apply, h0]

/-! ## From the blocks to the array

Point `t` of the 50 works on rows `2000 t … 2000 t + 1999`: the feature window's and the result window's block row is
the grid coordinate and their block column is 0; the bias window is the whole vector and the weight window the whole
matrix, block 0, at every point. -/

theorem hz : (![0, 0] : Fin 2 → Nat) = fun _ => 0 := funext fun a => by fin_cases a <;> rfl
theorem hz1 : (![0] : Fin 1 → Nat) = fun _ => 0 := funext fun a => by fin_cases a; rfl

/-- The printed index maps, decided once over the 50 points. -/
theorem idx_facts : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 1) = 0
    ∧ win2_2.index t (0 : Fin 2) = 0 ∧ win2_2.index t (1 : Fin 2) = 0 :=
  (by decide +kernel : ∀ t : Fin grid2.N, win2_3.index t (0 : Fin 2) = t.val ∧ win2_3.index t (1 : Fin 2) = 0
    ∧ win2_0.index t (0 : Fin 2) = t.val ∧ win2_0.index t (1 : Fin 2) = 0
    ∧ win2_1.index t (0 : Fin 1) = 0
    ∧ win2_2.index t (0 : Fin 2) = 0 ∧ win2_2.index t (1 : Fin 2) = 0)

/-- The feature block at point `t`, entry `(p, κ)`, is the feature matrix at row `2000 t + p`, column `κ`. -/
theorem xblk_apply (c : Dev nD) (t : Fin cfg2.N) (p : Fin 2000) (κ : Fin 64) (r : Fin 100000)
    (hr : r.val = 2000 * t.val + p.val) :
    (iblk2 V c 0 t : S2000x64.Idx → EReal) (ix2 p κ) = (V c main_v47 : S100000x64.Idx → EReal) (ix2 r κ) := by
  obtain ⟨-, -, e0, e1, -, -, -⟩ := idx_facts t
  show V c main_v47 (((cfg2.win 0).blk t).view.emb (ix2 p κ)) = V c main_v47 (ix2 r κ)
  refine congrArg _ ?_
  funext a; apply Fin.ext
  match a with
  | ⟨0, _⟩ => show win2_0.index t (0 : Fin 2) * 2000 + 1 * p.val = r.val; omega
  | ⟨1, _⟩ => show win2_0.index t (1 : Fin 2) * 64 + 1 * κ.val = κ.val; omega

/-- The bias block at any point is the bias vector itself. -/
theorem bblk_apply (c : Dev nD) (t : Fin cfg2.N) (κ : Fin 64) :
    (iblk2 V c 1 t : S64.Idx → EReal) (ix1 κ) = (V c main_arg3 : S64.Idx → EReal) (ix1 κ) := by
  obtain ⟨-, -, -, -, e0, -, -⟩ := idx_facts t
  show V c main_arg3 (((cfg2.win 1).blk t).view.emb (ix1 κ)) = V c main_arg3 (ix1 κ)
  refine congrArg _ ?_
  funext a; apply Fin.ext
  match a with
  | ⟨0, _⟩ => show win2_1.index t (0 : Fin 1) * 64 + 1 * κ.val = κ.val; omega

/-- The weight block at any point is the weight matrix itself. -/
theorem wblk_apply (c : Dev nD) (t : Fin cfg2.N) (κ : Fin 64) (q : Fin 32) :
    (iblk2 V c 2 t : S64x32.Idx → EReal) (ix2 κ q) = (V c main_arg4 : S64x32.Idx → EReal) (ix2 κ q) := by
  obtain ⟨-, -, -, -, -, e0, e1⟩ := idx_facts t
  show V c main_arg4 (((cfg2.win 2).blk t).view.emb (ix2 κ q)) = V c main_arg4 (ix2 κ q)
  refine congrArg _ ?_
  funext a; apply Fin.ext
  match a with
  | ⟨0, _⟩ => show win2_2.index t (0 : Fin 2) * 64 + 1 * κ.val = κ.val; omega
  | ⟨1, _⟩ => show win2_2.index t (1 : Fin 2) * 32 + 1 * q.val = q.val; omega

/-- What point `t` writes back is block `t` of the product of the rectified biased features by the weight matrix. -/
theorem flushed_eq (c : Dev nD) (t : Fin cfg2.N) :
    (dat2 (F := Ideal) V c).flushed 3 t = ((cfg2.win 3).blk t).view.read (Elt Ideal)
      (rowsMul (reluAddRow (V c main_v47 : S100000x64.Idx → EReal) (V c main_arg3 : S64.Idx → EReal))
        (V c main_arg4 : S64x32.Idx → EReal)) := by
  show (cfg2.win 3).cut (grid2.coords t) ((dat2 V c).after 3 t) = _
  rw [after2_3]
  unfold out2_3
  rw [View.canon_unit_zero hz]
  simp only [View.ld_unit_zero (S := S2000x64) hz, View.ld_unit_zero (S := S64) hz1, View.ld_unit_zero (S := S64x32) hz]
  obtain ⟨e0, e1, -, -, -, -, -⟩ := idx_facts t
  funext j
  obtain ⟨p, q, rfl⟩ : ∃ (p : Fin 2000) (q : Fin 32), j = ix2 p q := ⟨j 0, j 1, eq_ix2 j⟩
  show k2_pay1 (iblk2 V c 0 t) (iblk2 V c 1 t) (iblk2 V c 2 t) (ix2 p q)
    = rowsMul (reluAddRow (V c main_v47 : S100000x64.Idx → EReal) (V c main_arg3 : S64.Idx → EReal))
        (V c main_arg4 : S64x32.Idx → EReal) (((cfg2.win 3).blk t).view.emb (ix2 p q))
  rw [pay_apply]
  unfold rowsMul reluAddRow
  refine Finset.sum_congr rfl fun κ _ => ?_
  have hq : col (((cfg2.win 3).blk t).view.emb (ix2 p q)) = q :=
    Fin.ext (by show win2_3.index t (1 : Fin 2) * 32 + 1 * q.val = q.val; omega)
  rw [xblk_apply V c t p κ (row (((cfg2.win 3).blk t).view.emb (ix2 p q))) (by
      show win2_3.index t (0 : Fin 2) * 2000 + 1 * p.val = 2000 * t.val + p.val; omega),
    bblk_apply V c t κ, wblk_apply V c t κ q, hq]

/-- An index of the result array is in point `t`'s block iff each coordinate is in the block's range on its axis. -/
theorem mem_blk (t : Fin cfg2.N) (i : S100000x32.Idx) :
    i ∈ ((cfg2.win 3).blk t).view.set ↔ ∀ a : Fin 2, win2_3.index t a * S2000x32.size a ≤ (i a).val
      ∧ (i a).val < win2_3.index t a * S2000x32.size a + S2000x32.size a := by
  show i ∈ ((View.whole main_v48).slice (win2_3.rect t)).set ↔ _
  rw [View.set_slice_whole, Rect.mem_set_unit]
  exact Iff.rfl

/-- The 50 row blocks tile the array: row `r` is in the block of point `r / 2000`. -/
theorem cover (i : S100000x32.Idx) :
    ∃ t : Fin cfg2.N, (cfg2.win 3).flush t = true ∧ i ∈ ((cfg2.win 3).blk t).view.set := by
  have hi0 : (i 0).val < 100000 := idx2_lt0 i
  have hi1 : (i 1).val < 32 := idx2_lt1 i
  have hN : cfg2.N = 50 := N_2
  have ht : (i 0).val / 2000 < cfg2.N := by rw [hN]; omega
  obtain ⟨e0, e1, -, -, -, -, -⟩ := idx_facts ⟨(i 0).val / 2000, ht⟩
  refine ⟨⟨(i 0).val / 2000, ht⟩, flush2_3 _, ?_⟩
  rw [mem_blk]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, ht⟩ (1 : Fin 2) * 32 ≤ (i 1).val
      ∧ (i 1).val < win2_3.index ⟨(i 0).val / 2000, ht⟩ (1 : Fin 2) * 32 + 32
    rw [e1]; omega

/-- The result array after the region: the rectified biased features times the weight matrix, entry by entry. -/
theorem final2 (c : Dev nD) :
    ((dat2 (F := Ideal) V c).arrAt 3 cfg2.N : S100000x32.Idx → EReal)
      = rowsMul (reluAddRow (V c main_v47 : S100000x64.Idx → EReal) (V c main_arg3 : S64.Idx → EReal)) (V c main_arg4 : S64x32.Idx → EReal) :=
  (dat2 (F := Ideal) V c).arrAt_eq_of_cover 3
    (rowsMul (reluAddRow (V c main_v47 : S100000x64.Idx → EReal) (V c main_arg3 : S64.Idx → EReal))
      (V c main_arg4 : S64x32.Idx → EReal))
    (fun t _ => flushed_eq V c t) cover

end Cert.Gcn.Reg2

end
-- ==== Proof.Reg3.lean ====
/-
  Region 3, the second layer's messages: every gathered row of the hidden features, now 32 wide, scaled by its edge's
  normalization factor (the same column of factors as in the first layer).

  The grid has 416 points; point t holds rows 4096 t .. 4096 t + 4095 of the three arrays (the 32-wide features, the
  one-wide column of factors, the 32-wide result). On its block the body multiplies entry (p, q) of the features by the
  factor in row p, the column of factors being spread along the 32 features. So what point t writes back is block t
  of ONE function of the two whole arrays, `scaleRows`; the 416 blocks tile the 1703936 rows, hence the array ends
  holding that function.
-/
import proofs.«170379_j16054587753020_1_alg».proof.Proof.Gen.KernelIdeal.Frame
import proofs.«170379_j16054587753020_1_alg».proof.Proof.Rows
import proofs.«170379_j16054587753020_1_alg».proof.Proof.LibKeepdims
import Idealize.ShloMosaic.Lib.Pipeline.Value
import Idealize.ShloMosaic.Lib.ValueLayout
import Idealize.ShloMosaic.PureOps.Ideal.Laws

noncomputable section

namespace Cert.Gcn.Reg3

open Idealize.ShloMosaic Idealize.ShloMosaic.TcCoe Idealize.ShloMosaic.ValueIdx Idealize.SL.Sem
open Cert.KernelIdeal Cert.KernelIdeal.Facts₀ Cert.KernelIdeal.Gen Cert.Gcn

variable (V : (c : Dev nD) → (b : Ref sig .tc) → Buf (Elt Ideal) ((c : Thread nD τ).loc b))

/-- The body's one store starts at the origin of its block. -/
theorem origin : (![0, 0] : Fin 2 → Nat) = fun _ => 0 :=
  funext fun a => by match a with | ⟨0, _⟩ => rfl | ⟨1, _⟩ => rfl

/-- The body at entry (p, q) of a block: the feature times the factor of row p. The two same-shape casts are
    identities, the column of factors broadcast along the features reads its row. -/
theorem pay_apply (x0 : Vec Ideal S4096x32 .f32) (x1 : Vec Ideal S4096x1 .f32) (p : Fin 4096) (q : Fin 32) :
    k3_pay1 x0 x1 (ix2 p q) = x0 (ix2 p q) * x1 (ix2 p (0 : Fin 1)) := by
  unfold k3_pay1
  rw [mulf_apply, shapeCast_self, shapeCast_self, Cert.LibKeepdims.broadcastTo_a1_ab_apply]

/-- The printed index maps over the 416 points: all three windows sit at block row t, block column 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- One block against the whole arrays. If a block of features is the features `h` read along a map `e` of indices, and
    a block of factors is the factors `s` read along `e'`, and `e'` sends row p of the column to the row `e` sends (p, q)
    to, then the body's entry (p, q) is the scaled rows' entry at `e (p, q)`. -/
theorem block_apply (x0 : Vec Ideal S4096x32 .f32) (x1 : Vec Ideal S4096x1 .f32)
    (h : S1703936x32.Idx → EReal) (s : S1703936x1.Idx → EReal)
    (e : S4096x32.Idx → S1703936x32.Idx) (e' : S4096x1.Idx → S1703936x1.Idx)
    (hx0 : ∀ y, x0 y = h (e y)) (hx1 : ∀ y, x1 y = s (e' y))
    (hrow : ∀ (p : Fin 4096) (q : Fin 32), e' (ix2 p (0 : Fin 1)) = ix2 (row (e (ix2 p q))) (0 : Fin 1))
    (p : Fin 4096) (q : Fin 32) :
    k3_pay1 x0 x1 (ix2 p q) = scaleRows h s (e (ix2 p q)) := by
  rw [pay_apply, hx0, hx1, hrow p q]
  rfl

/-- WHAT POINT t WRITES BACK is block t of the scaled rows of the two arrays as the region finds them. -/
theorem flushed_eq (c : Dev nD) (t : Fin cfg3.N) :
    (dat3 (F := Ideal) V c).flushed 2 t = ((cfg3.win 2).blk t).view.read (Elt Ideal)
      (scaleRows (V c main_v55 : S1703936x32.Idx → EReal) (V c main_v35 : S1703936x1.Idx → EReal)) := by
  show (cfg3.win 2).cut (grid3.coords t) ((dat3 V c).after 2 t) = _
  rw [after3_2]
  unfold out3_2
  rw [View.canon_unit_zero origin]
  simp only [View.ld_unit_zero (S := S4096x32) origin, View.ld_unit_zero (S := S4096x1) origin]
  obtain ⟨a0, a1, b0, b1, r0, r1⟩ := idx_facts t
  funext j
  obtain ⟨p, q, rfl⟩ : ∃ (p : Fin 4096) (q : Fin 32), j = ix2 p q := ⟨j 0, j 1, eq_ix2 j⟩
  refine block_apply (iblk3 V c 0 t) (iblk3 V c 1 t) (V c main_v55) (V c main_v35)
    ((cfg3.win 2).blk t).view.emb ((cfg3.win 1).blk t).view.emb (fun y => ?_) (fun y => rfl) (fun p q => ?_) p q
  · -- the features' block sits where the result's does
    show V c main_v55 (((cfg3.win 0).blk t).view.emb y) = V c main_v55 (((cfg3.win 2).blk t).view.emb y)
    refine congrArg _ (funext fun a => Fin.ext ?_)
    match a with
    | ⟨0, _⟩ =>
      show win3_0.index t (0 : Fin 2) * 4096 + 1 * (y 0).val = win3_2.index t (0 : Fin 2) * 4096 + 1 * (y 0).val
      omega
    | ⟨1, _⟩ =>
      show win3_0.index t (1 : Fin 2) * 32 + 1 * (y 1).val = win3_2.index t (1 : Fin 2) * 32 + 1 * (y 1).val
      omega
  · -- the factors' block holds the same rows, in its one column
    refine funext fun a => Fin.ext ?_
    match a with
    | ⟨0, _⟩ =>
      show win3_1.index t (0 : Fin 2) * 4096 + 1 * p.val = win3_2.index t (0 : Fin 2) * 4096 + 1 * p.val
      omega
    | ⟨1, _⟩ =>
      show win3_1.index t (1 : Fin 2) * 1 + 1 * 0 = 0
      omega

/-- An index of the result array lies in point t's block iff, on each axis, it lies in the block's range. -/
theorem mem_blk (t : Fin cfg3.N) (i : S1703936x32.Idx) :
    i ∈ ((cfg3.win 2).blk t).view.set ↔
      ∀ a : Fin 2, win3_2.index t a * S4096x32.size a ≤ (i a).val
        ∧ (i a).val < win3_2.index t a * S4096x32.size a + S4096x32.size a := by
  show i ∈ ((View.whole main_v56).slice (win3_2.rect t)).set ↔ _
  rw [View.set_slice_whole, Rect.mem_set_unit]
  exact Iff.rfl

/-- The 416 blocks of 4096 rows tile the 1703936 rows: row r belongs to the block of point r / 4096, and the one block
    column is the whole width. -/
theorem cover (i : S1703936x32.Idx) :
    ∃ t : Fin cfg3.N, (cfg3.win 2).flush t = true ∧ i ∈ ((cfg3.win 2).blk t).view.set := by
  have hr : (i 0).val < 1703936 := idx2_lt0 i
  have hq : (i 1).val < 32 := idx2_lt1 i
  have hlt : (i 0).val / 4096 < cfg3.N := by
    rw [show cfg3.N = 416 from N_3]; omega
  obtain ⟨-, -, -, -, r0, r1⟩ := idx_facts ⟨(i 0).val / 4096, hlt⟩
  have r0' : win3_2.index ⟨(i 0).val / 4096, hlt⟩ (0 : Fin 2) = (i 0).val / 4096 := r0
  refine ⟨⟨(i 0).val / 4096, hlt⟩, flush3_2 _, ?_⟩
  rw [mem_blk]
  intro a
  match a with
  | ⟨0, _⟩ =>
    show win3_2.index ⟨(i 0).val / 4096, hlt⟩ (0 : Fin 2) * 4096 ≤ (i 0).val
      ∧ (i 0).val < win3_2.index ⟨(i 0).val / 4096, hlt⟩ (0 : Fin 2) * 4096 + 4096
    omega
  | ⟨1, _⟩ =>
    show win3_2.index ⟨(i 0).val / 4096, hlt⟩ (1 : Fin 2) * 32 ≤ (i 1).val
      ∧ (i 1).val < win3_2.index ⟨(i 0).val / 4096, hlt⟩ (1 : Fin 2) * 32 + 32
    omega

/-- The result array after the region: every row of the gathered features scaled by its edge's factor. -/
theorem final3 (c : Dev nD) :
    ((dat3 (F := Ideal) V c).arrAt 2 cfg3.N : S1703936x32.Idx → EReal)
      = scaleRows (V c main_v55 : S1703936x32.Idx → EReal) (V c main_v35 : S1703936x1.Idx → EReal) :=
  (dat3 (F := Ideal) V c).arrAt_eq_of_cover 2
    (scaleRows (V c main_v55 : S1703936x32.Idx → EReal) (V c main_v35 : S1703936x1.Idx → EReal))
    (fun t _ => flushed_eq V c t) cover

end Cert.Gcn.Reg3

end
-- ==== Proof.Reg4.lean ====
/-
  Region 4, the second layer's bias: fifty points, each adding the bias vector to the 2000 rows of its block of the
  aggregated features. The result array, entry by entry, is the operand's entry plus the bias at the entry's column.
-/
import proofs.«170379_j16054587753020_1_alg».proof.Proof.Gen.KernelIdeal.Frame
import proofs.«170379_j16054587753020_1_alg».proof.Proof.Rows
import Idealize.ShloMosaic.Lib.Pipeline.Value
import Idealize.ShloMosaic.Lib.ValueLayout
import Idealize.ShloMosaic.PureOps.Ideal.Laws

noncomputable section

namespace Cert.Gcn.Reg4

open Idealize.ShloMosaic Idealize.ShloMosaic.TcCoe Idealize.ShloMosaic.ValueIdx Idealize.SL.Sem
open Cert.KernelIdeal Cert.KernelIdeal.Facts₀ Cert.KernelIdeal.Gen Cert.Gcn

variable (V : (c : Dev nD) → (b : Ref sig .tc) → Buf (Elt Ideal) ((c : Thread nD τ).loc b))

/-! ## The body at an entry

The body adds to a `[2000, 32]` block the bias vector laid out as one row `[1, 32]` and copied down the 2000 rows: the
block's own cast is to its own shape, the vector's cast only adds a leading unit axis, and the broadcast reads the one
row at the entry's column. So entry `(p, q)` of the result is the block's entry `(p, q)` plus the bias at `q`. -/

theorem pay_apply (x : Vec Ideal S2000x32 .f32) (b : Vec Ideal S32 .f32) (p : Fin 2000) (q : Fin 32) :
    k4_pay1 x b (ix2 p q) = x (ix2 p q) + b (ix1 q) := by
  unfold k4_pay1
  show shapeCast S2000x32 x Facts₀.shapeCasts_S2000x32_S2000x32 (ix2 p q)
      + broadcastTo S2000x32 (shapeCast S1x32 b Facts₀.shapeCasts_S32_S1x32) Facts₀.broadcasts_S1x32_S2000x32 (ix2 p q)
    = x (ix2 p q) + b (ix1 q)
  rw [shapeCast_self, broadcastTo_1b_ab_apply, shapeCast_a_1a_apply]

/-! ## From the blocks to the array

Point `t` of the 50 works on rows `2000 t … 2000 t + 1999`: the operand window's and the result window's block row is the
grid coordinate and their block column is 0; the bias window is the whole vector, block 0, at every point. -/

theorem hz : (![0, 0] : Fin 2 → Nat) = fun _ => 0 := funext fun a => by fin_cases a <;> rfl
theorem hz1 : (![0] : Fin 1 → Nat) = fun _ => 0 := funext fun a => by fin_cases a; rfl

/-- The printed index maps, decided once over the 50 points. -/
theorem idx_facts : ∀ t : Fin cfg4.N, win4_2.index t (0 : Fin 2) = t.val ∧ win4_2.index t (1 : Fin 2) = 0
    ∧ win4_0.index t (0 : Fin 2) = t.val ∧ win4_0.index t (1 : Fin 2) = 0
    ∧ win4_1.index t (0 : Fin 1) = 0 :=
  (by decide +kernel : ∀ t : Fin grid4.N, win4_2.index t (0 : Fin 2) = t.val ∧ win4_2.index t (1 : Fin 2) = 0
    ∧ win4_0.index t (0 : Fin 2) = t.val ∧ win4_0.index t (1 : Fin 2) = 0
    ∧ win4_1.index t (0 : Fin 1) = 0)

/-- The operand block at point `t`, entry `(p, q)`, is the operand at row `2000 t + p`, column `q`. -/
theorem xblk_apply (c : Dev nD) (t : Fin cfg4.N) (p : Fin 2000) (q : Fin 32) (r : Fin 100000)
    (hr : r.val = 2000 * t.val + p.val) :
    (iblk4 V c 0 t : S2000x32.Idx → EReal) (ix2 p q) = (V c main_v59 : S100000x32.Idx → EReal) (ix2 r q) := by
  obtain ⟨-, -, e0, e1, -⟩ := idx_facts t
  show V c main_v59 (((cfg4.win 0).blk t).view.emb (ix2 p q)) = V c main_v59 (ix2 r q)
  refine congrArg _ ?_
  funext a; apply Fin.ext
  match a with
  | ⟨0, _⟩ => show win4_0.index t (0 : Fin 2) * 2000 + 1 * p.val = r.val; omega
  | ⟨1, _⟩ => show win4_0.index t (1 : Fin 2) * 32 + 1 * q.val = q.val; omega

/-- The bias block at any point is the bias vector itself. -/
theorem bblk_apply (c : Dev nD) (t : Fin cfg4.N) (q : Fin 32) :
    (iblk4 V c 1 t : S32.Idx → EReal) (ix1 q) = (V c main_arg5 : S32.Idx → EReal) (ix1 q) := by
  obtain ⟨-, -, -, -, e0⟩ := idx_facts t
  show V c main_arg5 (((cfg4.win 1).blk t).view.emb (ix1 q)) = V c main_arg5 (ix1 q)
  refine congrArg _ ?_
  funext a; apply Fin.ext
  match a with
  | ⟨0, _⟩ => show win4_1.index t (0 : Fin 1) * 32 + 1 * q.val = q.val; omega

/-- What point `t` writes back is block `t` of the operand with the bias added to every row. -/
theorem flushed_eq (c : Dev nD) (t : Fin cfg4.N) :
    (dat4 (F := Ideal) V c).flushed 2 t = ((cfg4.win 2).blk t).view.read (Elt Ideal)
      (addRow (V c main_v59 : S100000x32.Idx → EReal) (V c main_arg5 : S32.Idx → EReal)) := by
  show (cfg4.win 2).cut (grid4.coords t) ((dat4 V c).after 2 t) = _
  rw [after4_2]
  unfold out4_2
  rw [View.canon_unit_zero hz]
  simp only [View.ld_unit_zero (S := S2000x32) hz, View.ld_unit_zero (S := S32) hz1]
  obtain ⟨e0, e1, -, -, -⟩ := idx_facts t
  funext j
  obtain ⟨p, q, rfl⟩ : ∃ (p : Fin 2000) (q : Fin 32), j = ix2 p q := ⟨j 0, j 1, eq_ix2 j⟩
  show k4_pay1 (iblk4 V c 0 t) (iblk4 V c 1 t) (ix2 p q)
    = addRow (V c main_v59 : S100000x32.Idx → EReal) (V c main_arg5 : S32.Idx → EReal)
        (((cfg4.win 2).blk t).view.emb (ix2 p q))
  rw [pay_apply]
  unfold addRow
  rw [xblk_apply V c t p q (row (((cfg4.win 2).blk t).view.emb (ix2 p q))) (by
      show win4_2.index t (0 : Fin 2) * 2000 + 1 * p.val = 2000 * t.val + p.val; omega),
    bblk_apply V c t q]
  refine congrArg₂ (· + ·) (congrArg _ ?_) (congrArg _ ?_)
  · funext a; apply Fin.ext
    match a with
    | ⟨0, _⟩ => rfl
    | ⟨1, _⟩ => show q.val = win4_2.index t (1 : Fin 2) * 32 + 1 * q.val; omega
  · funext a; apply Fin.ext
    match a with
    | ⟨0, _⟩ => show q.val = win4_2.index t (1 : Fin 2) * 32 + 1 * q.val; omega

/-- An index of the result array is in point `t`'s block iff each coordinate is in the block's range on its axis. -/
theorem mem_blk (t : Fin cfg4.N) (i : S100000x32.Idx) :
    i ∈ ((cfg4.win 2).blk t).view.set ↔ ∀ a : Fin 2, win4_2.index t a * S2000x32.size a ≤ (i a).val
      ∧ (i a).val < win4_2.index t a * S2000x32.size a + S2000x32.size a := by
  show i ∈ ((View.whole main_v60).slice (win4_2.rect t)).set ↔ _
  rw [View.set_slice_whole, Rect.mem_set_unit]
  exact Iff.rfl

/-- The 50 row blocks tile the array: row `r` is in the block of point `r / 2000`. -/
theorem cover (i : S100000x32.Idx) :
    ∃ t : Fin cfg4.N, (cfg4.win 2).flush t = true ∧ i ∈ ((cfg4.win 2).blk t).view.set := by
  have hi0 : (i 0).val < 100000 := idx2_lt0 i
  have hi1 : (i 1).val < 32 := idx2_lt1 i
  have hN : cfg4.N = 50 := N_4
  have ht : (i 0).val / 2000 < cfg4.N := by rw [hN]; omega
  obtain ⟨e0, e1, -, -, -⟩ := idx_facts ⟨(i 0).val / 2000, ht⟩
  refine ⟨⟨(i 0).val / 2000, ht⟩, flush4_2 _, ?_⟩
  rw [mem_blk]
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_2.index ⟨(i 0).val / 2000, ht⟩ (1 : Fin 2) * 32 ≤ (i 1).val
      ∧ (i 1).val < win4_2.index ⟨(i 0).val / 2000, ht⟩ (1 : Fin 2) * 32 + 32
    rw [e1]; omega

/-- The result array after the region: the operand with the bias vector added to every row. -/
theorem final4 (c : Dev nD) :
    ((dat4 (F := Ideal) V c).arrAt 2 cfg4.N : S100000x32.Idx → EReal)
      = addRow (V c main_v59 : S100000x32.Idx → EReal) (V c main_arg5 : S32.Idx → EReal) := by
  exact (dat4 (F := Ideal) V c).arrAt_eq_of_cover 2
    (addRow (V c main_v59 : S100000x32.Idx → EReal) (V c main_arg5 : S32.Idx → EReal))
    (fun t _ => flushed_eq V c t) cover

end Cert.Gcn.Reg4

end
-- ==== Proof.HostK.lean ====
/-
  The kernel program's host stretches, read: what each buffer a pallas_call reads holds when the call is entered, as a term of the
  launch contents of the six arguments.

  Between the launch and the first call the program computes the padded source and destination lists and the padded column of edge
  weights; these three buffers are written once and only read afterwards, so they hold the same contents at every later boundary, and so
  do the six arguments. Before the second and the fourth call a stretch gathers rows of the previous call's result; before the third and
  the fifth a stretch scatter-adds the previous call's result into a zero array. Chained with what each call leaves in its result array
  (the region modules), the program's result is `K.out` of the arguments.
-/
import proofs.«170379_j16054587753020_1_alg».proof.Proof.Gen.KernelIdeal.Frame
import proofs.«170379_j16054587753020_1_alg».proof.Proof.KTerms
import proofs.«170379_j16054587753020_1_alg».proof.Proof.Walks
import proofs.«170379_j16054587753020_1_alg».proof.Proof.Host0
import proofs.«170379_j16054587753020_1_alg».proof.Proof.Reg0
import proofs.«170379_j16054587753020_1_alg».proof.Proof.Reg1
import proofs.«170379_j16054587753020_1_alg».proof.Proof.Reg2
import proofs.«170379_j16054587753020_1_alg».proof.Proof.Reg3
import proofs.«170379_j16054587753020_1_alg».proof.Proof.Reg4
import Idealize.ShloMosaic.Lib.StableHlo.Run

set_option maxRecDepth 16384

noncomputable section

namespace Cert.Gcn.HostK

open Idealize.ShloMosaic Idealize.ShloMosaic.TcCoe Idealize.ShloMosaic.StableHlo Idealize.SL.Sem
open Cert.KernelIdeal Cert.KernelIdeal.Facts₀ Cert.KernelIdeal.Gen Cert.Gcn Cert.Gcn.Walks Cert.Gcn.Host0

variable (m : (ℓ : Loc nD τ sig) → Buf (Elt Ideal) ℓ) (ρ : Dev nD → PrngReg)

/-! ## The stretches between the calls -/

/-- Before the second call: the rows of the first call's result at the (wrapped) padded sources. -/
theorem W5_v43 (c : Dev nD) :
    (W5 m ρ c (Proc.devRef .tc main_v43) : S1703936x64.Idx → EReal)
      = Host.gather gather_S100000x64_S1703936x1_S1703936x64_1_0_n_n_0_1_164 (W4 m ρ c (Proc.devRef .tc main_v36) : S100000x64.Idx → EReal)
          (K.icolP (K.wrapP (W4 m ρ c (Proc.devRef .tc main_v32)))) := by
  show StableHlo.after hostOps1 (W4 m ρ c) (Proc.devRef .tc main_v43) = _
  after_results
  rfl

/-- Before the third call: the second call's scaled rows added into a zero array at the padded destinations. -/
theorem W7_v47 (c : Dev nD) :
    (W7 m ρ c (Proc.devRef .tc main_v47) : S100000x64.Idx → EReal)
      = Host.scatterAdd (F := Ideal) scatter_S100000x64_S1703936x1_S1703936x64_1_0_0_1 (broadcastInDim S100000x64 ![] Facts₀.bcast_S_S100000x64 (constant S_ .f32 0x00000000#32))
          (K.icolP (W6 m ρ c (Proc.devRef .tc main_v33))) (W6 m ρ c (Proc.devRef .tc main_v44) : S1703936x64.Idx → EReal) := by
  show StableHlo.after hostOps2 (W6 m ρ c) (Proc.devRef .tc main_v47) = _
  after_results
  rfl

/-- Before the fourth call: the rows of the third call's result at the (wrapped) padded sources. -/
theorem W9_v55 (c : Dev nD) :
    (W9 m ρ c (Proc.devRef .tc main_v55) : S1703936x32.Idx → EReal)
      = Host.gather gather_S100000x32_S1703936x1_S1703936x32_1_0_n_n_0_1_132 (W8 m ρ c (Proc.devRef .tc main_v48) : S100000x32.Idx → EReal)
          (K.icolP (K.wrapP (W8 m ρ c (Proc.devRef .tc main_v32)))) := by
  show StableHlo.after hostOps3 (W8 m ρ c) (Proc.devRef .tc main_v55) = _
  after_results
  rfl

/-- Before the fifth call: the fourth call's scaled rows added into a zero array at the padded destinations. -/
theorem W11_v59 (c : Dev nD) :
    (W11 m ρ c (Proc.devRef .tc main_v59) : S100000x32.Idx → EReal)
      = Host.scatterAdd (F := Ideal) scatter_S100000x32_S1703936x1_S1703936x32_1_0_0_1 (broadcastInDim S100000x32 ![] Facts₀.bcast_S_S100000x32 (constant S_ .f32 0x00000000#32))
          (K.icolP (W10 m ρ c (Proc.devRef .tc main_v33))) (W10 m ρ c (Proc.devRef .tc main_v56) : S1703936x32.Idx → EReal) := by
  show StableHlo.after hostOps4 (W10 m ρ c) (Proc.devRef .tc main_v59) = _
  after_results
  rfl

/-! ## The calls' results at the boundaries, and the program's result -/

/-- After the first call: `x · W1`. -/
theorem W4_v36 (c : Dev nD) :
    (W4 m ρ c (Proc.devRef .tc main_v36) : S100000x64.Idx → EReal)
      = rowsMul (m ((c : Thread nD τ).loc main_arg0) : S100000x64.Idx → EReal) (m ((c : Thread nD τ).loc main_arg2) : S64x64.Idx → EReal) := by
  refine (W4_arr m ρ c 2).trans ((Reg0.final0 (V3 m ρ) c).trans ?_)
  show rowsMul (W3 m ρ c (Proc.devRef .tc main_arg0) : S100000x64.Idx → EReal) (W3 m ρ c (Proc.devRef .tc main_arg2) : S64x64.Idx → EReal) = _
  rw [W3_arg0, W3_arg2]

/-- After the second call: the gathered rows of `x · W1`, each scaled by its edge's weight. -/
theorem W6_v44 (c : Dev nD) :
    (W6 m ρ c (Proc.devRef .tc main_v44) : S1703936x64.Idx → EReal)
      = scaleRows (Host.gather gather_S100000x64_S1703936x1_S1703936x64_1_0_n_n_0_1_164
            (rowsMul (m ((c : Thread nD τ).loc main_arg0) : S100000x64.Idx → EReal) (m ((c : Thread nD τ).loc main_arg2) : S64x64.Idx → EReal))
            (K.icolP (K.wrapP (K.padI (K.src (m ((c : Thread nD τ).loc main_arg1)))))))
          (K.fcolP (F := Ideal) (K.padF (K.nrm (m ((c : Thread nD τ).loc main_arg1))))) := by
  refine (W6_arr m ρ c 2).trans ((Reg1.final1 (V5 m ρ) c).trans ?_)
  show scaleRows (W5 m ρ c (Proc.devRef .tc main_v43) : S1703936x64.Idx → EReal) (W5 m ρ c (Proc.devRef .tc main_v35) : S1703936x1.Idx → EReal) = _
  rw [W5_v43, W4_v36, W4_v32, W3_v32, W5_v35, W3_v35]

/-- Before the third call: the first layer's aggregate. -/
theorem W7_v47_eq (c : Dev nD) :
    (W7 m ρ c (Proc.devRef .tc main_v47) : S100000x64.Idx → EReal)
      = K.layer64 (rowsMul (m ((c : Thread nD τ).loc main_arg0) : S100000x64.Idx → EReal) (m ((c : Thread nD τ).loc main_arg2) : S64x64.Idx → EReal))
          (K.padI (K.src (m ((c : Thread nD τ).loc main_arg1)))) (K.padI (K.dst (m ((c : Thread nD τ).loc main_arg1))))
          (K.fcolP (F := Ideal) (K.padF (K.nrm (m ((c : Thread nD τ).loc main_arg1))))) := by
  rw [W7_v47, W6_v44, W6_v33, W3_v33]
  unfold K.layer64
  rfl

/-- After the third call: the rectified, biased first layer times `W2`. -/
theorem W8_v48 (c : Dev nD) :
    (W8 m ρ c (Proc.devRef .tc main_v48) : S100000x32.Idx → EReal)
      = rowsMul (reluAddRow (K.layer64 (rowsMul (m ((c : Thread nD τ).loc main_arg0) : S100000x64.Idx → EReal) (m ((c : Thread nD τ).loc main_arg2) : S64x64.Idx → EReal))
            (K.padI (K.src (m ((c : Thread nD τ).loc main_arg1)))) (K.padI (K.dst (m ((c : Thread nD τ).loc main_arg1))))
            (K.fcolP (F := Ideal) (K.padF (K.nrm (m ((c : Thread nD τ).loc main_arg1))))))
          (m ((c : Thread nD τ).loc main_arg3) : S64.Idx → EReal)) (m ((c : Thread nD τ).loc main_arg4) : S64x32.Idx → EReal) := by
  refine (W8_arr m ρ c 3).trans ((Reg2.final2 (V7 m ρ) c).trans ?_)
  show rowsMul (reluAddRow (W7 m ρ c (Proc.devRef .tc main_v47) : S100000x64.Idx → EReal) (W7 m ρ c (Proc.devRef .tc main_arg3) : S64.Idx → EReal))
      (W7 m ρ c (Proc.devRef .tc main_arg4) : S64x32.Idx → EReal) = _
  rw [W7_v47_eq, W7_arg3, W7_arg4]

/-- THE KERNEL PROGRAM'S RESULT: at the last boundary the result buffer holds `K.out` of the launch contents of the six arguments. -/
theorem kernel_value (c : Dev nD) :
    (W12 m ρ c (Proc.devRef .tc main_v60) : S100000x32.Idx → EReal)
      = K.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W12_arr m ρ c 2).trans ((Reg4.final4 (V11 m ρ) c).trans ?_)
  show addRow (W11 m ρ c (Proc.devRef .tc main_v59) : S100000x32.Idx → EReal) (W11 m ρ c (Proc.devRef .tc main_arg5) : S32.Idx → EReal) = _
  rw [W11_v59, W11_arg5, W10_v33, W3_v33]
  have h56 : (W10 m ρ c (Proc.devRef .tc main_v56) : S1703936x32.Idx → EReal)
      = scaleRows (Host.gather gather_S100000x32_S1703936x1_S1703936x32_1_0_n_n_0_1_132 (W8 m ρ c (Proc.devRef .tc main_v48) : S100000x32.Idx → EReal)
            (K.icolP (K.wrapP (K.padI (K.src (m ((c : Thread nD τ).loc main_arg1)))))))
          (K.fcolP (F := Ideal) (K.padF (K.nrm (m ((c : Thread nD τ).loc main_arg1))))) := by
    refine (W10_arr m ρ c 2).trans ((Reg3.final3 (V9 m ρ) c).trans ?_)
    show scaleRows (W9 m ρ c (Proc.devRef .tc main_v55) : S1703936x32.Idx → EReal) (W9 m ρ c (Proc.devRef .tc main_v35) : S1703936x1.Idx → EReal) = _
    rw [W9_v55, W8_v32, W3_v32, W9_v35, W3_v35]
  rw [h56, W8_v48]
  unfold K.out K.layer32
  rfl

end Cert.Gcn.HostK

end
-- ==== Proof.RTerms.lean ====
/-
  The reference program's computation as named terms of its arguments: the same edge lists, degrees and edge weights as the kernel
  program's (without the padding), and one aggregation layer written with the host's own operations — gather the sources' rows, multiply by the
  edge weights broadcast along the features, add each row into its destination's row.
-/
import proofs.«170379_j16054587753020_1_alg».proof.ReferenceIdeal
import proofs.«170379_j16054587753020_1_alg».proof.Proof.Gen.ReferenceIdeal

noncomputable section

namespace Cert.Gcn.R

open Idealize.ShloMosaic Cert.ReferenceIdeal Cert.ReferenceIdeal.Facts₀

variable {F : FTy → Type} [FloatOps F]

/-- The sources: row 0 of the edge list, then every node once (its self loop). -/
def src (e : IVec S2x1600000 32) : IVec S1700000 32 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The destinations: row 1 of the edge list, then every node once. -/
def dst (e : IVec S2x1600000 32) : IVec S1700000 32 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A negative node number counts from the end: `v + 100000` where `v < 0`. -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- A list of node numbers as a column of one-entry index vectors. -/
def icol (v : IVec S1700000 32) : IVec S1700000x1 32 := broadcastInDim S1700000x1 ![0] bcast_S1700000_S1700000x1_0 v

/-- A node's degree: the number of edges (self loop included) that end in it. -/
def deg (e : IVec S2x1600000 32) : FVec F S100000 .f32 :=
  Host.scatterAdd scatter_S100000_S1700000x1_S1700000_n_0_0_1 (broadcastInDim S100000 ![] bcast_S_S100000 (constant S_ .f32 0x00000000#32)) (icol (dst e)) (broadcastInDim S1700000 ![] bcast_S_S1700000 (constant S_ .f32 0x3F800000#32))

/-- The inverse square root of the degree, zero where the degree is not positive. -/
def dinv (e : IVec S2x1600000 32) : FVec F S100000 .f32 :=
  select (cmpf (F := F) .ogt (deg e) (broadcastInDim S100000 ![] bcast_S_S100000 (constant S_ .f32 0x00000000#32))) (Host.rsqrt (deg e)) (broadcastInDim S100000 ![] bcast_S_S100000 (id (constant S_ .f32 0x00000000#32)))

/-- The weight of every edge: `dinv` at its source times `dinv` at its destination. -/
def nrm (e : IVec S2x1600000 32) : FVec F S1700000 .f32 :=
  mulf (Host.gather gather_S100000_S1700000x1_S1700000_n_0_n_n_0_1_1 (dinv e) (icol (wrap (src e)))) (Host.gather gather_S100000_S1700000x1_S1700000_n_0_n_n_0_1_1 (dinv e) (icol (wrap (dst e))))

/-- One aggregation, 64 features: gather the sources' rows of `A`, multiply row `k` by weight `k`, add it into the row of destination `k`. -/
def layer64 (A : FVec F S100000x64 .f32) (s d : IVec S1700000 32) (n : FVec F S1700000 .f32) : FVec F S100000x64 .f32 :=
  Host.scatterAdd scatter_S100000x64_S1700000x1_S1700000x64_1_0_0_1 (broadcastInDim S100000x64 ![] bcast_S_S100000x64 (constant S_ .f32 0x00000000#32)) (icol d)
    (mulf (Host.gather gather_S100000x64_S1700000x1_S1700000x64_1_0_n_n_0_1_164 A (icol (wrap s)))
      (broadcastInDim S1700000x64 ![0, 1] bcast_S1700000x1_S1700000x64_0_1 (broadcastInDim S1700000x1 ![0] bcast_S1700000_S1700000x1_0 n)))

/-- The same over 32 features. -/
def layer32 (A : FVec F S100000x32 .f32) (s d : IVec S1700000 32) (n : FVec F S1700000 .f32) : FVec F S100000x32 .f32 :=
  Host.scatterAdd scatter_S100000x32_S1700000x1_S1700000x32_1_0_0_1 (broadcastInDim S100000x32 ![] bcast_S_S100000x32 (constant S_ .f32 0x00000000#32)) (icol d)
    (mulf (Host.gather gather_S100000x32_S1700000x1_S1700000x32_1_0_n_n_0_1_132 A (icol (wrap s)))
      (broadcastInDim S1700000x32 ![0, 1] bcast_S1700000x1_S1700000x32_0_1 (broadcastInDim S1700000x1 ![0] bcast_S1700000_S1700000x1_0 n)))

/-- The reference's result as one function of its six arguments: two layers, the first followed by its bias and the rectifier, the second by its bias. -/
def out (x : FVec F S100000x64 .f32) (e : IVec S2x1600000 32) (W1 : FVec F S64x64 .f32) (b1 : FVec F S64 .f32)
    (W2 : FVec F S64x32 .f32) (b2 : FVec F S32 .f32) : FVec F S100000x32 .f32 :=
  addf (layer32 (Host.dotGeneral dot_S100000x64_S64x32_S100000x32_1_0_0_1_n_n none
      (maximumf (addf (layer64 (Host.dotGeneral dot_S100000x64_S64x64_S100000x64_1_0_0_1_n_n none x W1) (src e) (dst e) (nrm e))
          (broadcastInDim S100000x64 ![0, 1] bcast_S1x64_S100000x64_0_1 (broadcastInDim S1x64 ![1] bcast_S64_S1x64_1 b1)))
        (broadcastInDim S100000x64 ![] bcast_S_S100000x64 (constant S_ .f32 0x00000000#32))) W2) (src e) (dst e) (nrm e))
    (broadcastInDim S100000x32 ![0, 1] bcast_S1x32_S100000x32_0_1 (broadcastInDim S1x32 ![1] bcast_S32_S1x32_1 b2))

end Cert.Gcn.R

end
-- ==== Proof.Pad.lean ====
/-
  The padding lemma. The kernel program extends the three edge lists from 1,700,000 to 1,703,936 = 416 · 4096 entries (node `0`
  for the sources and destinations, weight `0` for the weights), gathers the sources' rows, scales row `k` by weight `k` and adds it
  into the row of destination `k`; the reference does the same on the unpadded lists. On the first 1,700,000 rows the two read the
  same index words and the same weights, so their updates and landing rows agree; a padded row's update is `row * 0 = 0` over the
  extended reals (for every row, infinite entries included), so the padded rows add nothing and the two sums are equal.
-/
import proofs.«170379_j16054587753020_1_alg».proof.Proof.KTerms
import proofs.«170379_j16054587753020_1_alg».proof.Proof.RTerms
import Idealize.ShloMosaic.Lib.Pipeline.Value
import Idealize.ShloMosaic.Lib.ValueLayout
import Idealize.ShloMosaic.PureOps.Ideal.Laws

noncomputable section

namespace Cert.Gcn.Pad

open Idealize.ShloMosaic Idealize.ShloMosaic.ValueIdx Cert.Gcn

/-! ## A sum over a subtype of the index set

Two finite index sets, an injection `ι` of the first into the second, a predicate on each that agree along `ι`,
and a summand on each that agree along `ι`; the second summand vanishes off the range of `ι`. Then the two
filtered sums are equal: the second sum's extra terms are zeros. -/

section Sum
open Finset

theorem sum_filter_of_injection {α β E : Type*} [Fintype α] [Fintype β] [AddCommMonoid E]
    (ι : α → β) (hι : Function.Injective ι) (p : α → Prop) (q : β → Prop) [DecidablePred p] [DecidablePred q]
    (f : α → E) (g : β → E) (hpq : ∀ a, q (ι a) ↔ p a) (hfg : ∀ a, g (ι a) = f a)
    (h0 : ∀ b, (∀ a, ι a ≠ b) → g b = 0) :
    ∑ b ∈ univ.filter q, g b = ∑ a ∈ univ.filter p, f a := by
  have hmap : ∑ a ∈ univ.filter p, f a = ∑ b ∈ (univ.filter p).map ⟨ι, hι⟩, g b := by
    rw [Finset.sum_map]
    exact Finset.sum_congr rfl fun a _ => (hfg a).symm
  rw [hmap]
  symm
  refine Finset.sum_subset ?_ ?_
  · intro b hb
    obtain ⟨a, ha, rfl⟩ := Finset.mem_map.1 hb
    exact Finset.mem_filter.2 ⟨Finset.mem_univ _, (hpq a).2 (Finset.mem_filter.1 ha).2⟩
  · intro b hb hnb
    refine h0 b fun a hab => hnb ?_
    subst hab
    exact Finset.mem_map.2 ⟨a, Finset.mem_filter.2 ⟨Finset.mem_univ _, (hpq a).1 (Finset.mem_filter.1 hb).2⟩, rfl⟩

end Sum

/-! ## Where a row update lands

The scatter's dimension numbers: the updates `[N, C]` are rows, update row `k` goes to the operand row that the index
word `idx[k, 0]` names (read signed, not clamped), column to column. -/

section Scatter

/-- An update lands at `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · next hh =>
      intro a
      have ha := congrArg (fun k : s.Idx => (k a).val) (Option.some.inj h)
      have hb := hh a
      simp only at ha
      omega
    · exact absurd h (by simp)
  · intro h
    have hh : ∀ a, 0 ≤ d.start j idx a + (d.window j a : Int) ∧ d.start j idx a + (d.window j a : Int) < s.size a := fun a => by
      rw [h a]; have := (i a).isLt; omega
    rw [dif_pos hh]
    congr 1
    funext a
    refine Fin.ext ?_
    show (d.start j idx a + (d.window j a : Int)).toNat = (i a).val
    rw [h a]; rfl

variable {M N C : Nat}

/-- The row scatter's dimension numbers over an operand `[M, C]`, indices `[N, 1]`, updates `[N, C]`. -/
abbrev rowScatter (M N C : Nat) (wf : ScatterDims.WF ⟨2, ![M, C]⟩ ⟨2, ![N, 1]⟩ ⟨2, ![N, C]⟩ [1] [0] [0] 1) :
    ScatterDims ⟨2, ![M, C]⟩ ⟨2, ![N, 1]⟩ ⟨2, ![N, C]⟩ where
  updateWindowDims := [1]
  insertedWindowDims := [0]
  scatterDimsToOperandDims := [0]
  indexVectorDim := 1
  wf := wf

variable (wf : ScatterDims.WF ⟨2, ![M, C]⟩ ⟨2, ![N, 1]⟩ ⟨2, ![N, C]⟩ [1] [0] [0] 1) {w : Nat}
  (j : (⟨2, ![N, C]⟩ : Shape).Idx) (idx : IVec ⟨2, ![N, 1]⟩ w)

/-- On the row axis the window starts at the index word of the update's row. -/
theorem rowScatter_start0 : (rowScatter M N C wf).start j idx 0 = (idx (ix2 (row j) (0 : Fin 1))).toInt := by
  unfold ScatterDims.start
  rw [dif_pos (show (0 : Fin 2) ∈ (rowScatter M N C wf).scatterDimsToOperandDims from List.mem_singleton.mpr rfl)]
  have hsi : (rowScatter M N C wf).siIdx j ⟨List.idxOf (0 : Fin 2) (rowScatter M N C wf).scatterDimsToOperandDims,
      List.idxOf_lt_length_iff.2 (List.mem_singleton.mpr rfl)⟩ = ix2 (row j) (0 : Fin 1) := by
    funext b; refine Fin.ext ?_
    match b with
    | ⟨0, _⟩ => rfl
    | ⟨1, _⟩ => rfl
  rw [hsi]

/-- On the column axis the window starts at `0`. -/
theorem rowScatter_start1 : (rowScatter M N C wf).start j idx 1 = 0 := by
  unfold ScatterDims.start
  rw [dif_neg (show (1 : Fin 2) ∉ [(0 : Fin 2)] from by decide)]

/-- The row axis is inserted: its window coordinate is `0`. -/
theorem rowScatter_window0 : (rowScatter M N C wf).window j 0 = 0 := by
  unfold ScatterDims.window
  have h : (0 : Fin 2) ∉ (rowScatter M N C wf).sKept :=
    show (0 : Fin 2) ∉ (List.finRange 2).filter (fun a => a ∉ [(0 : Fin 2)]) from by decide
  rw [dif_neg h]

/-- The column axis carries the update's column. -/
theorem rowScatter_window1 : (rowScatter M N C wf).window j 1 = (j 1).val := by
  unfold ScatterDims.window
  have h : (1 : Fin 2) ∈ (rowScatter M N C wf).sKept :=
    show (1 : Fin 2) ∈ (List.finRange 2).filter (fun a => a ∉ [(0 : Fin 2)]) from by decide
  rw [dif_pos h]
  rfl

/-- THE LANDING ROW: update `j` lands at `i` exactly when its row's index word is `i`'s row and its column is `i`'s. -/
theorem rowScatter_resultIdx?_eq_some_iff (i : (⟨2, ![M, C]⟩ : Shape).Idx) :
    (rowScatter M N C wf).resultIdx? j idx = some i ↔
      (idx (ix2 (row j) (0 : Fin 1))).toInt = ((i 0).val : Int) ∧ (j 1).val = (i 1).val := by
  rw [resultIdx?_eq_some_iff]
  constructor
  · intro h
    have h0 := h 0
    have h1 := h 1
    rw [rowScatter_start0, rowScatter_window0] at h0
    rw [rowScatter_start1, rowScatter_window1] at h1
    exact ⟨by simpa using h0, by omega⟩
  · rintro ⟨h0, h1⟩ a
    match a with
    | ⟨0, _⟩ =>
      show (rowScatter M N C wf).start j idx 0 + ((rowScatter M N C wf).window j 0 : Int) = _
      rw [rowScatter_start0, rowScatter_window0, h0]; simp
    | ⟨1, _⟩ =>
      show (rowScatter M N C wf).start j idx 1 + ((rowScatter M N C wf).window j 1 : Int) = _
      rw [rowScatter_start1, rowScatter_window1, h1]; simp

end Scatter

/-! ## The gathered row

The gather's dimension numbers: result row `k` is the operand row that the index word `idx[k, 0]` names (read signed,
clamped into `[0, M − 1]`), column to column. -/

section Gather

variable {M N C : Nat} {α : Type}

/-- The row gather's dimension numbers over an operand `[M, C]`, start indices `[N, 1]`, result `[N, C]`. -/
abbrev rowGather (M N C : Nat) (wf : GatherDims.WF ⟨2, ![M, C]⟩ ⟨2, ![N, 1]⟩ ⟨2, ![N, C]⟩ [1] [0] [] [0] [] 1 ![1, C]) :
    GatherDims ⟨2, ![M, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE GATHER READ AT `(k, c)`: the operand at row `idx[k, 0]` (signed, clamped into `[0, M − 1]`), column `c`. -/
theorem rowGather_apply (hM : 0 < M)
    (wf : GatherDims.WF ⟨2, ![M, C]⟩ ⟨2, ![N, 1]⟩ ⟨2, ![N, C]⟩ [1] [0] [] [0] [] 1 ![1, C]) {w : Nat}
    (x : (⟨2, ![M, C]⟩ : Shape).Idx → α) (idx : IVec ⟨2, ![N, 1]⟩ w) (j : (⟨2, ![N, C]⟩ : Shape).Idx) :
    Host.gather (rowGather M N C wf) x idx j
      = x (ix2 ⟨min (idx (ix2 (row j) (0 : Fin 1))).toInt.toNat (M - 1), by omega⟩ (col j)) := by
  unfold Host.gather
  congr 1
  funext a
  refine Fin.ext ?_
  match a with
  | ⟨0, _⟩ =>
    show (rowGather M N C wf).start j idx 0 + (rowGather M N C wf).batchCoord j 0 + (rowGather M N C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather M N C wf).startIndexMap from List.mem_singleton.mpr rfl)]
    have hsi : (rowGather M N C wf).siIdx j ⟨List.idxOf (0 : Fin 2) (rowGather M N C wf).startIndexMap,
        List.idxOf_lt_length_iff.2 (List.mem_singleton.mpr rfl)⟩ = ix2 (row j) (0 : Fin 1) := by
      funext b; refine Fin.ext ?_
      match b with
      | ⟨0, _⟩ => rfl
      | ⟨1, _⟩ => rfl
    rw [hsi]
    rfl
  | ⟨1, _⟩ =>
    show (rowGather M N C wf).start j idx 1 + (rowGather M N C wf).batchCoord j 1 + (rowGather M N C wf).offCoord j 1 = (j 1).val
    rw [GatherDims.batchCoord_eq_zero _ _ _ List.not_mem_nil]
    unfold GatherDims.start
    rw [dif_neg (show (1 : Fin 2) ∉ [(0 : Fin 2)] from by decide)]
    unfold GatherDims.offCoord
    have h : (1 : Fin 2) ∈ (rowGather M N C wf).sKept :=
      show (1 : Fin 2) ∈ (List.finRange 2).filter (fun a => a ∉ ([(0 : Fin 2)] ++ [])) from by decide
    rw [dif_pos h]
    simp only [Nat.zero_add, Nat.add_zero]
    rfl

end Gather

/-! ## Reading the padded lists, the columns and the broadcast weights -/

section Reads
open Cert.KernelIdeal Cert.KernelIdeal.Facts₀

variable {α : Type}

/-- A list as a column `[N, 1]`, read at `(r, 0)`: the list at `r`. -/
theorem bcastCol_apply {N : Nat} (hN : N ≠ 1) (h : (⟨1, ![N]⟩ : Shape).BroadcastsInDim ⟨2, ![N, 1]⟩ (![0] : Fin 1 → Fin 2))
    (v : (⟨1, ![N]⟩ : Shape).Idx → α) (r : Fin N) :
    broadcastInDim ⟨2, ![N, 1]⟩ ![0] h v (ix2 r (0 : Fin 1)) = v (ix1 r) := by
  refine broadcastInDim_apply _ _ _ _ _ fun a => ?_
  match a with
  | ⟨0, _⟩ =>
    show (r : Nat) = if N = 1 then 0 else (r : Nat)
    rw [if_neg hN]

/-- A column `[N, 1]` broadcast along `C` features, read at `j`: the column at `j`'s row. -/
theorem bcastRow_apply {N C : Nat} (hN : N ≠ 1) (h : (⟨2, ![N, 1]⟩ : Shape).BroadcastsInDim ⟨2, ![N, C]⟩ (![0, 1] : Fin 2 → Fin 2))
    (y : (⟨2, ![N, 1]⟩ : Shape).Idx → α) (j : (⟨2, ![N, C]⟩ : Shape).Idx) :
    broadcastInDim ⟨2, ![N, C]⟩ ![0, 1] h y j = y (ix2 (row j) (0 : Fin 1)) := by
  refine broadcastInDim_apply _ _ _ _ _ fun a => ?_
  match a with
  | ⟨0, _⟩ =>
    show (j 0).val = if N = 1 then 0 else (j 0).val
    rw [if_neg hN]
  | ⟨1, _⟩ =>
    show (0 : Nat) = if (1 : Nat) = 1 then 0 else (j 1).val
    rw [if_pos rfl]

/-- Below 1,700,000 the padded node list reads the list. -/
theorem padI_left (v : IVec S1700000 32) (r : Nat) (h : r < 1700000) :
    K.padI v (ix1 (⟨r, by omega⟩ : Fin 1703936)) = v (ix1 (⟨r, h⟩ : Fin 1700000)) := by
  unfold K.padI
  refine concatenate_pair_apply_left _ _ _ _ _ (by rfl) (ix1 (⟨r, h⟩ : Fin 1700000)) ?_
  intro b
  match b with
  | ⟨0, _⟩ => rfl

/-- Below 1,700,000 the padded weights read the weights. -/
theorem padF_left (v : FVec Ideal S1700000 .f32) (r : Nat) (h : r < 1700000) :
    K.padF v (ix1 (⟨r, by omega⟩ : Fin 1703936)) = v (ix1 (⟨r, h⟩ : Fin 1700000)) := by
  unfold K.padF
  refine concatenate_pair_apply_left _ _ _ _ _ (by rfl) (ix1 (⟨r, h⟩ : Fin 1700000)) ?_
  intro b
  match b with
  | ⟨0, _⟩ => rfl

/-- From 1,700,000 on the padded weights are the weight `0`. -/
theorem padF_right (v : FVec Ideal S1700000 .f32) (r : Nat) (h : r < 1703936) (h' : 1700000 ≤ r) :
    K.padF v (ix1 (⟨r, h⟩ : Fin 1703936)) = 0 := by
  unfold K.padF
  refine (concatenate_pair_apply_right _ _ _ _ _ (by rfl) (by rfl) (ix1 (⟨r - 1700000, by omega⟩ : Fin 3936)) ?_ ?_).trans
    Ideal.ofBits_zero_f32
  · intro b hb
    match b with
    | ⟨0, _⟩ => exact absurd rfl hb
  · show r - 1700000 + 1700000 = r
    omega

/-- The node-number wrap of one index word. -/
def wrapWord (b : BitVec 32) : BitVec 32 :=
  Scalar.select (IntOp.cmpi .slt b 0#32) (IntOp.addi b 100000#32) b

theorem wrapP_apply (v : IVec S1703936 32) (i : S1703936.Idx) : K.wrapP v i = wrapWord (v i) := rfl

theorem wrap_apply (v : IVec S1700000 32) (i : S1700000.Idx) : R.wrap v i = wrapWord (v i) := rfl

end Reads

/-! ## The padded scatter-add is the unpadded one -/

section Core
open Cert.KernelIdeal Cert.KernelIdeal.Facts₀

theorem le_pad : 1700000 ≤ 1703936 := by omega

/-- Row `k` of the short array as row `k` of the long one. -/
def emb {N N' C : Nat} (h : N ≤ N') (j : (⟨2, ![N, C]⟩ : Shape).Idx) : (⟨2, ![N', C]⟩ : Shape).Idx :=
  ix2 (⟨(j 0).val, by have := idx2_lt0 j; omega⟩ : Fin N') (col j)

theorem emb_injective {N N' C : Nat} (h : N ≤ N') : Function.Injective (emb (C := C) h) := by
  intro a b hab
  have h0 := congrArg (fun k : (⟨2, ![N', C]⟩ : Shape).Idx => (k 0).val) hab
  have h1 := congrArg (fun k : (⟨2, ![N', C]⟩ : Shape).Idx => (k 1).val) hab
  exact Shape.idx_ext₂ h0 h1

theorem icolP_apply (v : IVec S1703936 32) (r : Fin 1703936) : K.icolP v (ix2 r (0 : Fin 1)) = v (ix1 r) :=
  bcastCol_apply (by omega) _ v r

theorem fcolP_apply (v : FVec Ideal S1703936 .f32) (r : Fin 1703936) : K.fcolP v (ix2 r (0 : Fin 1)) = v (ix1 r) :=
  bcastCol_apply (by omega) _ v r

theorem icol_apply (v : IVec S1700000 32) (r : Fin 1700000) : R.icol v (ix2 r (0 : Fin 1)) = v (ix1 r) :=
  bcastCol_apply (by omega) _ v r

/-- THE PADDING LEMMA for the scatter-add: index words and updates that agree on the first 1,700,000 rows, and updates that
    vanish on the padded rows, give the same sums. -/
theorem scatter_pad {C : Nat}
    (wfK : ScatterDims.WF ⟨2, ![100000, C]⟩ ⟨2, ![1703936, 1]⟩ ⟨2, ![1703936, C]⟩ [1] [0] [0] 1)
    (wfR : ScatterDims.WF ⟨2, ![100000, C]⟩ ⟨2, ![1700000, 1]⟩ ⟨2, ![1700000, C]⟩ [1] [0] [0] 1)
    (x : (⟨2, ![100000, C]⟩ : Shape).Idx → EReal)
    (idxK : IVec ⟨2, ![1703936, 1]⟩ 32) (idxR : IVec ⟨2, ![1700000, 1]⟩ 32)
    (updK : (⟨2, ![1703936, C]⟩ : Shape).Idx → EReal) (updR : (⟨2, ![1700000, C]⟩ : Shape).Idx → EReal)
    (hidx : ∀ (r : Nat) (h : r < 1700000),
      idxK (ix2 (⟨r, by omega⟩ : Fin 1703936) (0 : Fin 1)) = idxR (ix2 (⟨r, h⟩ : Fin 1700000) (0 : Fin 1)))
    (hupd : ∀ j', updK (emb le_pad j') = updR j')
    (hzero : ∀ j, 1700000 ≤ (j 0).val → updK j = 0) :
    Ideal.hostScatterAdd (rowScatter 100000 1703936 C wfK) x idxK updK
      = Ideal.hostScatterAdd (rowScatter 100000 1700000 C wfR) x idxR updR := by
  funext i
  unfold Ideal.hostScatterAdd
  refine congrArg (fun t => x i + t) ?_
  refine sum_filter_of_injection (emb le_pad) (emb_injective _) _ _ updR updK (fun j' => ?_) hupd (fun j hj => ?_)
  · rw [rowScatter_resultIdx?_eq_some_iff, rowScatter_resultIdx?_eq_some_iff]
    rw [show idxK (ix2 (row (emb le_pad j')) (0 : Fin 1)) = idxR (ix2 (row j') (0 : Fin 1)) from hidx _ (idx2_lt0 j')]
    exact Iff.rfl
  · refine hzero j (Nat.le_of_not_lt fun hlt => hj (ix2 (⟨(j 0).val, hlt⟩ : Fin 1700000) (col j)) ?_)
    funext a
    match a with
    | ⟨0, _⟩ => rfl
    | ⟨1, _⟩ => rfl

/-- On the first 1,700,000 rows the kernel's scaled gathered row is the reference's. -/
theorem upd_agree {C : Nat}
    (wfK : GatherDims.WF ⟨2, ![100000, C]⟩ ⟨2, ![1703936, 1]⟩ ⟨2, ![1703936, C]⟩ [1] [0] [] [0] [] 1 ![1, C])
    (wfR : GatherDims.WF ⟨2, ![100000, C]⟩ ⟨2, ![1700000, 1]⟩ ⟨2, ![1700000, C]⟩ [1] [0] [] [0] [] 1 ![1, C])
    (hb : (⟨2, ![1700000, 1]⟩ : Shape).BroadcastsInDim ⟨2, ![1700000, C]⟩ (![0, 1] : Fin 2 → Fin 2))
    (hc : (⟨1, ![1700000]⟩ : Shape).BroadcastsInDim ⟨2, ![1700000, 1]⟩ (![0] : Fin 1 → Fin 2))
    (A : FVec Ideal ⟨2, ![100000, C]⟩ .f32) (s : IVec S1700000 32) (n : FVec Ideal S1700000 .f32)
    (j' : (⟨2, ![1700000, C]⟩ : Shape).Idx) :
    scaleRows (Host.gather (rowGather 100000 1703936 C wfK) A (K.icolP (K.wrapP (K.padI s)))) (K.fcolP (K.padF n)) (emb le_pad j')
      = mulf (Host.gather (rowGather 100000 1700000 C wfR) A (R.icol (R.wrap s)))
          (broadcastInDim ⟨2, ![1700000, C]⟩ ![0, 1] hb (broadcastInDim ⟨2, ![1700000, 1]⟩ ![0] hc n)) j' := by
  have hr := idx2_lt0 j'
  show Host.gather (rowGather 100000 1703936 C wfK) A (K.icolP (K.wrapP (K.padI s))) (emb le_pad j')
        * K.fcolP (K.padF n) (ix2 (row (emb le_pad j')) (0 : Fin 1))
      = Host.gather (rowGather 100000 1700000 C wfR) A (R.icol (R.wrap s)) j'
        * broadcastInDim ⟨2, ![1700000, C]⟩ ![0, 1] hb (broadcastInDim ⟨2, ![1700000, 1]⟩ ![0] hc n) j'
  rw [rowGather_apply (by omega), rowGather_apply (by omega)]
  rw [bcastRow_apply (N := 1700000) (by omega)]
  rw [bcastCol_apply (N := 1700000) (by omega)]
  rw [fcolP_apply]
  -- the weight of a row below 1,700,000 is the unpadded weight; its source word is the unpadded source word
  have e2 : K.padF n (ix1 (row (emb le_pad j'))) = n (ix1 (row j')) := padF_left n (j' 0).val hr
  have e1 : K.icolP (K.wrapP (K.padI s)) (ix2 (row (emb le_pad j')) (0 : Fin 1))
      = R.icol (R.wrap s) (ix2 (row j') (0 : Fin 1)) := by
    rw [icolP_apply, icol_apply, wrapP_apply, wrap_apply]
    exact congrArg wrapWord (padI_left s (j' 0).val hr)
  refine congrArg₂ (fun a b : EReal => a * b) (congrArg A (Shape.idx_ext₂ ?_ rfl)) e2
  show min (K.icolP (K.wrapP (K.padI s)) (ix2 (row (emb le_pad j')) (0 : Fin 1))).toInt.toNat (100000 - 1)
    = min (R.icol (R.wrap s) (ix2 (row j') (0 : Fin 1))).toInt.toNat (100000 - 1)
  rw [e1]

/-- On the padded rows the kernel's scaled row is `row * 0 = 0`. -/
theorem upd_zero {C : Nat} (g : (⟨2, ![1703936, C]⟩ : Shape).Idx → EReal) (n : FVec Ideal S1700000 .f32)
    (j : (⟨2, ![1703936, C]⟩ : Shape).Idx) (h : 1700000 ≤ (j 0).val) :
    scaleRows g (K.fcolP (K.padF n)) j = 0 := by
  show g j * K.fcolP (K.padF n) (ix2 (row j) (0 : Fin 1)) = 0
  rw [fcolP_apply, padF_right n _ (idx2_lt0 j) h, mul_zero]

end Core

theorem pad64 (A : FVec Ideal Cert.KernelIdeal.S100000x64 .f32) (s d : IVec Cert.KernelIdeal.S1700000 32) (n : FVec Ideal Cert.KernelIdeal.S1700000 .f32) :
    K.layer64 A (K.padI s) (K.padI d) (K.fcolP (K.padF n)) = R.layer64 (F := Ideal) A s d n := by
  unfold K.layer64 R.layer64 Host.scatterAdd
  rw [Ideal.hostScatterAdd_def, Ideal.hostScatterAdd_def]
  exact scatter_pad (C := 64) _ _ _ _ _ _ _
    (fun r h => (icolP_apply _ _).trans ((padI_left d r h).trans (icol_apply _ _).symm))
    (fun j' => upd_agree _ _ _ _ A s n j') (fun j h => upd_zero _ n j h)

theorem pad32 (A : FVec Ideal Cert.KernelIdeal.S100000x32 .f32) (s d : IVec Cert.KernelIdeal.S1700000 32) (n : FVec Ideal Cert.KernelIdeal.S1700000 .f32) :
    K.layer32 A (K.padI s) (K.padI d) (K.fcolP (K.padF n)) = R.layer32 (F := Ideal) A s d n := by
  unfold K.layer32 R.layer32 Host.scatterAdd
  rw [Ideal.hostScatterAdd_def, Ideal.hostScatterAdd_def]
  exact scatter_pad (C := 32) _ _ _ _ _ _ _
    (fun r h => (icolP_apply _ _).trans ((padI_left d r h).trans (icol_apply _ _).symm))
    (fun j' => upd_agree _ _ _ _ A s n j') (fun j h => upd_zero _ n j h)

end Cert.Gcn.Pad

end
-- ==== Proof.RefOps.lean ====
/-
  The reference's host operations read as the row functions of one graph-convolution layer, over the extended reals.

  A `dot_general` that contracts the left operand's axis 1 against the right operand's axis 0 is, at row `r` and column `c`,
  the sum over the 64 shared coordinates of `x (r, κ) * w (κ, c)`: its contraction index set has one axis of extent 64 and is
  re-indexed by that coordinate. A bias vector made a one-row matrix and copied down the rows contributes `b c` at entry `(r, c)`;
  the rectifier is the entrywise maximum with the zero constant copied to every entry.
-/
import proofs.«170379_j16054587753020_1_alg».proof.Proof.RTerms
import proofs.«170379_j16054587753020_1_alg».proof.Proof.Rows
import Idealize.ShloMosaic.Lib.Pipeline.Value
import Idealize.ShloMosaic.Lib.ValueLayout
import Idealize.ShloMosaic.PureOps.Ideal.Laws

noncomputable section

namespace Cert.Gcn.RefOps

open Idealize.ShloMosaic Idealize.ShloMosaic.ValueIdx Cert.ReferenceIdeal Cert.ReferenceIdeal.Facts₀ Cert.Gcn

/-! ## The two products' operand indices

Both records contract the left operand's axis 1 against the right operand's axis 0, with no batch axis: at result index
`j` and contraction position `k` the left operand is read at `(j 0, k)` and the right operand at `(k, j 1)`. One lemma
per operand axis, each at the literal axis. -/

theorem d64_lhs0 (j : S100000x64.Idx) (k : dot_S100000x64_S64x64_S100000x64_1_0_0_1_n_n.contr.Idx) :
    (dot_S100000x64_S64x64_S100000x64_1_0_0_1_n_n.lhsIdx j k 0).val = (j 0).val := rfl
theorem d64_lhs1 (j : S100000x64.Idx) (k : dot_S100000x64_S64x64_S100000x64_1_0_0_1_n_n.contr.Idx) :
    (dot_S100000x64_S64x64_S100000x64_1_0_0_1_n_n.lhsIdx j k 1).val = (k ⟨0, by decide⟩).val := rfl
theorem d64_rhs0 (j : S100000x64.Idx) (k : dot_S100000x64_S64x64_S100000x64_1_0_0_1_n_n.contr.Idx) :
    (dot_S100000x64_S64x64_S100000x64_1_0_0_1_n_n.rhsIdx j k 0).val = (k ⟨0, by decide⟩).val := rfl
theorem d64_rhs1 (j : S100000x64.Idx) (k : dot_S100000x64_S64x64_S100000x64_1_0_0_1_n_n.contr.Idx) :
    (dot_S100000x64_S64x64_S100000x64_1_0_0_1_n_n.rhsIdx j k 1).val = (j 1).val := rfl

theorem d32_lhs0 (j : S100000x32.Idx) (k : dot_S100000x64_S64x32_S100000x32_1_0_0_1_n_n.contr.Idx) :
    (dot_S100000x64_S64x32_S100000x32_1_0_0_1_n_n.lhsIdx j k 0).val = (j 0).val := rfl
theorem d32_lhs1 (j : S100000x32.Idx) (k : dot_S100000x64_S64x32_S100000x32_1_0_0_1_n_n.contr.Idx) :
    (dot_S100000x64_S64x32_S100000x32_1_0_0_1_n_n.lhsIdx j k 1).val = (k ⟨0, by decide⟩).val := rfl
theorem d32_rhs0 (j : S100000x32.Idx) (k : dot_S100000x64_S64x32_S100000x32_1_0_0_1_n_n.contr.Idx) :
    (dot_S100000x64_S64x32_S100000x32_1_0_0_1_n_n.rhsIdx j k 0).val = (k ⟨0, by decide⟩).val := rfl
theorem d32_rhs1 (j : S100000x32.Idx) (k : dot_S100000x64_S64x32_S100000x32_1_0_0_1_n_n.contr.Idx) :
    (dot_S100000x64_S64x32_S100000x32_1_0_0_1_n_n.rhsIdx j k 1).val = (j 1).val := rfl

/-! ## The products -/

/-- The first layer's product `x · W₁`: the contraction's sum over its one-axis index set is the sum over the 64 shared
    coordinates, and at coordinate `κ` the operands are read at `(row, κ)` and `(κ, column)`. -/
theorem dot64_eq (x : FVec Ideal S100000x64 .f32) (w : FVec Ideal S64x64 .f32) :
    Host.dotGeneral (F := Ideal) dot_S100000x64_S64x64_S100000x64_1_0_0_1_n_n none x w = rowsMul x w := by
  funext i
  simp only [Host.dotGeneral]
  rw [Ideal.dotGeneral_apply]
  show _ = ∑ κ : Fin 64, x (ix2 (row i) κ) * w (ix2 κ (col i))
  rw [← Equiv.sum_comp (contrEquiv1 dot_S100000x64_S64x64_S100000x64_1_0_0_1_n_n 64 rfl rfl).symm]
  refine Finset.sum_congr rfl fun κ _ => ?_
  have hκ := contrEquiv1_symm_val dot_S100000x64_S64x64_S100000x64_1_0_0_1_n_n 64 rfl rfl κ
  have hl : dot_S100000x64_S64x64_S100000x64_1_0_0_1_n_n.lhsIdx i
      ((contrEquiv1 dot_S100000x64_S64x64_S100000x64_1_0_0_1_n_n 64 rfl rfl).symm κ) = ix2 (row i) κ := by
    funext a
    match a with
    | ⟨0, _⟩ => exact Fin.ext (d64_lhs0 _ _)
    | ⟨1, _⟩ => exact Fin.ext ((d64_lhs1 _ _).trans hκ)
  have hr : dot_S100000x64_S64x64_S100000x64_1_0_0_1_n_n.rhsIdx i
      ((contrEquiv1 dot_S100000x64_S64x64_S100000x64_1_0_0_1_n_n 64 rfl rfl).symm κ) = ix2 κ (col i) := by
    funext a
    match a with
    | ⟨0, _⟩ => exact Fin.ext ((d64_rhs0 _ _).trans hκ)
    | ⟨1, _⟩ => exact Fin.ext (d64_rhs1 _ _)
  rw [hl, hr]

/-- The second layer's product `h · W₂`, the same reading over 32 result columns. -/
theorem dot32_eq (x : FVec Ideal S100000x64 .f32) (w : FVec Ideal S64x32 .f32) :
    Host.dotGeneral (F := Ideal) dot_S100000x64_S64x32_S100000x32_1_0_0_1_n_n none x w = rowsMul x w := by
  funext i
  simp only [Host.dotGeneral]
  rw [Ideal.dotGeneral_apply]
  show _ = ∑ κ : Fin 64, x (ix2 (row i) κ) * w (ix2 κ (col i))
  rw [← Equiv.sum_comp (contrEquiv1 dot_S100000x64_S64x32_S100000x32_1_0_0_1_n_n 64 rfl rfl).symm]
  refine Finset.sum_congr rfl fun κ _ => ?_
  have hκ := contrEquiv1_symm_val dot_S100000x64_S64x32_S100000x32_1_0_0_1_n_n 64 rfl rfl κ
  have hl : dot_S100000x64_S64x32_S100000x32_1_0_0_1_n_n.lhsIdx i
      ((contrEquiv1 dot_S100000x64_S64x32_S100000x32_1_0_0_1_n_n 64 rfl rfl).symm κ) = ix2 (row i) κ := by
    funext a
    match a with
    | ⟨0, _⟩ => exact Fin.ext (d32_lhs0 _ _)
    | ⟨1, _⟩ => exact Fin.ext ((d32_lhs1 _ _).trans hκ)
  have hr : dot_S100000x64_S64x32_S100000x32_1_0_0_1_n_n.rhsIdx i
      ((contrEquiv1 dot_S100000x64_S64x32_S100000x32_1_0_0_1_n_n 64 rfl rfl).symm κ) = ix2 κ (col i) := by
    funext a
    match a with
    | ⟨0, _⟩ => exact Fin.ext ((d32_rhs0 _ _).trans hκ)
    | ⟨1, _⟩ => exact Fin.ext (d32_rhs1 _ _)
  rw [hl, hr]

/-! ## The bias rows

A bias vector `b : [f]` becomes the one-row matrix `[1, f]` (its entry `(0, c)` is `b c`) and that row is copied down
the `100000` rows: entry `(r, c)` of the result is `b c`. -/

theorem biasRow64 (b : FVec Ideal S64 .f32) (i : S100000x64.Idx) :
    broadcastInDim S100000x64 ![0, 1] bcast_S1x64_S100000x64_0_1 (broadcastInDim S1x64 ![1] bcast_S64_S1x64_1 b) i
      = b (ix1 (col i)) := by
  rw [broadcastInDim_apply ![0, 1] bcast_S1x64_S100000x64_0_1 _ i (ix2 (0 : Fin 1) (col i)) (fun a => by
    match a with
    | ⟨0, _⟩ => rfl
    | ⟨1, _⟩ => rfl)]
  exact broadcastInDim_apply ![1] bcast_S64_S1x64_1 b (ix2 (0 : Fin 1) (col i)) (ix1 (col i)) (fun a => by
    match a with
    | ⟨0, _⟩ => rfl)

theorem biasRow32 (b : FVec Ideal S32 .f32) (i : S100000x32.Idx) :
    broadcastInDim S100000x32 ![0, 1] bcast_S1x32_S100000x32_0_1 (broadcastInDim S1x32 ![1] bcast_S32_S1x32_1 b) i
      = b (ix1 (col i)) := by
  rw [broadcastInDim_apply ![0, 1] bcast_S1x32_S100000x32_0_1 _ i (ix2 (0 : Fin 1) (col i)) (fun a => by
    match a with
    | ⟨0, _⟩ => rfl
    | ⟨1, _⟩ => rfl)]
  exact broadcastInDim_apply ![1] bcast_S32_S1x32_1 b (ix2 (0 : Fin 1) (col i)) (ix1 (col i)) (fun a => by
    match a with
    | ⟨0, _⟩ => rfl)

/-- The first layer's bias and rectifier: the entrywise maximum of the biased entry and the zero constant copied to
    every entry. -/
theorem relu_eq (a : FVec Ideal S100000x64 .f32) (b : FVec Ideal S64 .f32) :
    maximumf (addf a (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32)) = reluAddRow a b := by
  funext i
  show max (a i + broadcastInDim S100000x64 ![0, 1] bcast_S1x64_S100000x64_0_1 (broadcastInDim S1x64 ![1] bcast_S64_S1x64_1 b) i)
      (broadcastInDim S100000x64 ![] bcast_S_S100000x64 (constant (F := Ideal) S_ .f32 0x00000000#32) i)
    = max (a i + b (ix1 (col i))) 0
  rw [biasRow64, broadcastInDim_apply ![] bcast_S_S100000x64 _ i ix0 (fun a => a.elim0)]
  show max (a i + b (ix1 (col i))) (Ideal.ofBits .f32 0x00000000#32) = _
  rw [Ideal.ofBits_zero_f32]

/-- The second layer's bias. -/
theorem bias_eq (a : FVec Ideal S100000x32 .f32) (b : FVec Ideal S32 .f32) :
    addf a (broadcastInDim S100000x32 ![0, 1] bcast_S1x32_S100000x32_0_1 (broadcastInDim S1x32 ![1] bcast_S32_S1x32_1 b)) = addRow a b := by
  funext i
  show a i + broadcastInDim S100000x32 ![0, 1] bcast_S1x32_S100000x32_0_1 (broadcastInDim S1x32 ![1] bcast_S32_S1x32_1 b) i
    = a i + b (ix1 (col i))
  rw [biasRow32]

end Cert.Gcn.RefOps

end
-- ==== Proof.Bridge.lean ====
/-
  The two programs compute one function of their arguments, over the extended reals.

  The kernel program's result is `K.out`: matrix products, biases and the rectifier written index by index, and each aggregation over the
  PADDED edge list. The reference's is `R.out`: the host's own matrix product, broadcast biases and maximum, each aggregation over the edge
  list itself. The edge lists, degrees and weights are the same terms on both sides; a padded aggregation is the unpadded one because a padded
  edge carries the weight zero (the padding lemma); and the host's matrix product, bias and rectifier are, entry by entry, the sums and maxima
  `K.out` is written with.
-/
import proofs.«170379_j16054587753020_1_alg».proof.Proof.KTerms
import proofs.«170379_j16054587753020_1_alg».proof.Proof.RTerms
import proofs.«170379_j16054587753020_1_alg».proof.Proof.Pad
import proofs.«170379_j16054587753020_1_alg».proof.Proof.RefOps
import proofs.«170379_j16054587753020_1_alg».proof.Proof.RefRun

noncomputable section

namespace Cert.Gcn.Bridge

open Idealize.ShloMosaic Idealize.ShloMosaic.TcCoe Idealize.SL.Sem Cert.Gcn

section AnyFamily
variable {F : FTy → Type} [FloatOps F]

/-- The sources, destinations and edge weights are the same terms in both programs (the two printed programs name the same shapes and
    dimension numbers apart). -/
theorem src_eq (e : IVec Cert.KernelIdeal.S2x1600000 32) : K.src e = R.src e := rfl
theorem dst_eq (e : IVec Cert.KernelIdeal.S2x1600000 32) : K.dst e = R.dst e := rfl
theorem nrm_eq (e : IVec Cert.KernelIdeal.S2x1600000 32) : K.nrm (F := F) e = R.nrm (F := F) e := rfl

open Cert.ReferenceIdeal in
/-- The reference run's result term is `R.out` of the launch contents of the arguments. -/
theorem ref_out (m : (ℓ : Loc nD τ sig) → Buf (Elt F) ℓ) (c : Dev nD) :
    Cert.ReferenceIdeal.RunP.res_main_v64 m c
      = R.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.RunP.res_main_v64; rfl

end AnyFamily

open Cert.KernelIdeal in
/-- THE TWO RESULTS AGREE: each padded aggregation is the unpadded one, and the index-by-index products, biases and rectifier are the host's. -/
theorem out_eq (x : FVec Ideal S100000x64 .f32) (e : IVec S2x1600000 32) (W1 : FVec Ideal S64x64 .f32) (b1 : FVec Ideal S64 .f32)
    (W2 : FVec Ideal S64x32 .f32) (b2 : FVec Ideal S32 .f32) :
    K.out x e W1 b1 W2 b2 = R.out (F := Ideal) x e W1 b1 W2 b2 := by
  unfold K.out R.out
  rw [Pad.pad64, Pad.pad32, src_eq, dst_eq, nrm_eq (F := Ideal)]
  rw [RefOps.dot64_eq, RefOps.relu_eq, RefOps.dot32_eq, RefOps.bias_eq]

end Cert.Gcn.Bridge

end
-- ==== Proof.lean ====
/-
  The certificate of a two-layer graph convolution: a Pallas program of five pallas_calls among host gathers and scatter-adds, against its jnp reference.

  Both programs normalize the adjacency matrix with self loops symmetrically — edge `k` weighs `dinv (src k) * dinv (dst k)`, `dinv` the inverse square
  root of a node's degree — and apply twice: multiply the node features by a weight matrix, gather the rows of the edges' sources, scale each row by its edge's
  weight, add it into the row of the edge's destination, add a bias (after the first layer also the rectifier). The kernel program computes the two matrix
  products (from bf16 operands, the identity over the extended reals), the row scalings and the last bias inside pallas_calls over blocks of 2000 nodes or
  4096 edges, and to that end pads the edge lists to 416 · 4096 entries with the node `0` at the weight `0`.

  Over the extended reals the two results are one function of the arguments (`Bridge.out_eq`): a padded edge adds `row * 0 = 0` into node 0's row, for
  any row, so each padded aggregation is the unpadded one (`Pad`); blockwise products, biases and the rectifier are the host's, entry by entry (`RefOps`,
  the region modules `Reg0` … `Reg4`); the host stretches between the calls are read off the run (`HostK`). No step uses that the inputs are finite.
  The frames of the two kernel programs are the generated ones; the reference's frame is its run with the result dropped; the idealization rewrote no
  operation, so `preserves` is `True`.
-/
import proofs.«170379_j16054587753020_1_alg».proof.Defs
import proofs.«170379_j16054587753020_1_alg».proof.Proof.Gen.Kernel
import proofs.«170379_j16054587753020_1_alg».proof.Proof.Gen.Kernel.Skeleton
import proofs.«170379_j16054587753020_1_alg».proof.Proof.Gen.Kernel.Launch
import proofs.«170379_j16054587753020_1_alg».proof.Proof.Gen.Kernel.Points
import proofs.«170379_j16054587753020_1_alg».proof.Proof.Gen.Kernel.Frame
import proofs.«170379_j16054587753020_1_alg».proof.Proof.Gen.KernelIdeal
import proofs.«170379_j16054587753020_1_alg».proof.Proof.Gen.KernelIdeal.Skeleton
import proofs.«170379_j16054587753020_1_alg».proof.Proof.Gen.KernelIdeal.Launch
import proofs.«170379_j16054587753020_1_alg».proof.Proof.Gen.KernelIdeal.Points
import proofs.«170379_j16054587753020_1_alg».proof.Proof.Gen.KernelIdeal.Frame
import proofs.«170379_j16054587753020_1_alg».proof.Proof.Gen.ReferenceIdeal
import proofs.«170379_j16054587753020_1_alg».proof.Proof.Gen.Pre_finite_inputs
import proofs.«170379_j16054587753020_1_alg».proof.Proof.RefRun
import proofs.«170379_j16054587753020_1_alg».proof.Proof.KRun
import proofs.«170379_j16054587753020_1_alg».proof.Proof.HostK
import proofs.«170379_j16054587753020_1_alg».proof.Proof.Bridge
import Idealize.ShloMosaic.Adequacy
import Idealize.ShloMosaic.Init

noncomputable section

namespace Cert.Proof

open Idealize.ShloMosaic Idealize.ShloMosaic.TcCoe Idealize.SL.Sem Cert.Gcn

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both programs, from memories agreeing on the arguments, end with their result at `K.out` of the kernel program's arguments: the kernel program by
    its run with the result named and the host stretches and calls read (`HostK.kernel_value`), the reference by its run, its result term `R.out` of the
    same arguments (`Bridge.ref_out`, the memories' agreement), which is `K.out` of them (`Bridge.out_eq`). -/
theorem algebraic : Cert.algebraic_KernelIdeal_ReferenceIdeal := by
  intro m ρ m' ρ' _ hagree
  refine ⟨fun c => K.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).1.trans (HostK.kernel_value m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.RunP.run (F := Ideal) m' ρ')
    rw [Bridge.ref_out, (hagree c).1, (hagree c).2.1, (hagree c).2.2.1, (hagree c).2.2.2.1, (hagree c).2.2.2.2.1, (hagree c).2.2.2.2.2]
    exact (Bridge.out_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
